-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x32 : Shape := ⟨2, ![800000, 32]⟩
abbrev S288x128 : Shape := ⟨2, ![288, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S288x128 : S_.BroadcastsInDim S288x128 (![] : Fin 0 → Fin S288x128.rank)
  reducesTo_S288x128_S_d0_1 : S288x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S1 .f32) (main_arg9 : FVec F S256x128 .f32) (main_arg10 : FVec F S128 .f32) (main_arg11 : FVec F S128x128 .f32) (main_arg12 : FVec F S128 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_v48 main_v49 main_v50

def fn_part1 {F : FTy → Type} [FloatOps F] (main_arg5 : FVec F S128x128 .f32) (main_arg6 : FVec F S128 .f32) (main_arg7 : FVec F S128x1 .f32) (main_arg8 : FVec F S1 .f32) (main_arg9 : FVec F S256x128 .f32) (main_arg10 : FVec F S128 .f32) (main_arg11 : FVec F S128x128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg7
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x800000 32) (main_arg2 : FVec F S800000x32 .f32) (main_arg3 : FVec F S288x128 .f32) (main_arg4 : FVec F S128 .f32) (main_arg5 : FVec F S128x128 .f32) (main_arg6 : FVec F S128 .f32) (main_arg7 : FVec F S128x1 .f32) (main_arg8 : FVec F S1 .f32) (main_arg9 : FVec F S256x128 .f32) (main_arg10 : FVec F S128 .f32) (main_arg11 : FVec F S128x128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S288x128 .f32 := Host.absf main_arg3
  let main_cst_2 : FVec F S_ .f32 := constant S_ .f32 0x7F800000#32
  let main_v10 : FVec F S288x128 .f32 := broadcastInDim S288x128 ![] bcast_S_S288x128 main_cst_2
  let main_v11 : IVec S288x128 1 := cmpf .olt main_v9 main_v10
  let main_c_3 : IVec S_ 1 := constantI S_ 1 1#1
  let main_v12 : IVec S_ 1 := (fun x v => Host.reduce IntOp.andi x v reducesTo_S288x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S800000x32 : Shape := ⟨2, ![800000, 32]⟩
abbrev S288x128 : Shape := ⟨2, ![288, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S4000x128 : Shape := ⟨2, ![4000, 128]⟩
abbrev S4000x32 : Shape := ⟨2, ![4000, 32]⟩
abbrev S4000x288 : Shape := ⟨2, ![4000, 288]⟩
abbrev S1x128 : Shape := ⟨2, ![1, 128]⟩
abbrev S4000x1 : Shape := ⟨2, ![4000, 1]⟩
abbrev S1x1 : Shape := ⟨2, ![1, 1]⟩
abbrev S2000x128 : Shape := ⟨2, ![2000, 128]⟩
abbrev S2000x256 : Shape := ⟨2, ![2000, 256]⟩

abbrev nBuf : Space → Nat
  | .hbm => 41
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x32, .f32⟩
  | .hbm, ⟨3, _⟩ => ⟨S288x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S50000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x32, .f32⟩
  | .local _ .vmem, ⟨5, _⟩ => ⟨S4000x32, .f32⟩
  | .local _ .vmem, ⟨6, _⟩ => ⟨S288x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128x1, .f32⟩
  | .local _ .vmem, ⟨11, _⟩ => ⟨S1, .f32⟩
  | .local _ .vmem, ⟨12, _⟩ => ⟨S4000x128, .f32⟩
  | .local _ .vmem, ⟨13, _⟩ => ⟨S4000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S256x128, .f32⟩
  | .local _ .vmem, ⟨19, _⟩ => ⟨S128, .f32⟩
  | .local _ .vmem, ⟨20, _⟩ => ⟨S128x128, .f32⟩
  | .local _ .vmem, ⟨21, _⟩ => ⟨S128, .f32⟩
  | .local _ .vmem, ⟨22, _⟩ => ⟨S2000x128, .f32⟩
  | .local _ .vmem, ⟨23, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S288x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x32_S4000x32_0_0 : ∀ a, (![0, 0] : Fin 2 → Nat) a + S4000x32.size a ≤ S4000x32.size a
  h_S4000x32 : 0 < S4000x32.numel
  concatenates_S4000x128_S4000x128_S4000x32_S4000x288_d1 : Shape.Concatenates [S4000x128, S4000x128, S4000x32] S4000x288 1
  bitsLt_bf16_f32 : FTy.bits .bf16 < FTy.bits .f32
  inb_S288x128_S288x128_0_0 : ∀ a, (![0, 0] : Fin 2 → Nat) a + S288x128.size a ≤ S288x128.size a
  h_S288x128 : 0 < S288x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  broadcasts_S4000x1_S4000x128 : S4000x1.Broadcasts S4000x128
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  concatenates_S2000x128_S2000x128_S2000x256_d1 : Shape.Concatenates [S2000x128, S2000x128] S2000x256 1
  inb_S256x128_S256x128_0_0 : ∀ a, (![0, 0] : Fin 2 → Nat) a + S256x128.size a ≤ S256x128.size a
  h_S256x128 : 0 < S256x128.numel
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  dot_S4000x288_S288x128_S4000x128_1_0_0_1_n_n_wf : DotDims.WF S4000x288 S288x128 S4000x128 [1] [0] [0] [1] [] []
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  scatter_S50000x128_S800000x1_S800000x128_1_0_0_1_wf : ScatterDims.WF S50000x128 S800000x1 S800000x128 [1] [0] [0] 1
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .f32 = 32 ∨ (Rect.block (s := S800000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S800000x32.size a
  hwx0_2 : ∀ i : grid0.Coords, EltTy.bits .f32 = 32 ∨ (Rect.block (s := S800000x32) S4000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S288x128.size a ≤ S288x128.size a
  hwx0_3 : ∀ i : grid0.Coords, EltTy.bits .f32 = 32 ∨ (Rect.block (s := S288x128) S288x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S128x1.size a
  hwx0_7 : ∀ i : grid0.Coords, EltTy.bits .f32 = 32 ∨ (Rect.block (s := S128x1) S128x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S800000x128.size a
  hwx0_9 : ∀ i : grid0.Coords, EltTy.bits .f32 = 32 ∨ (Rect.block (s := S800000x128) S4000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x288_S288x128_S4000x128_1_0_0_1_n_n : DotDims S4000x288 S288x128 S4000x128 where
  lhsContracting := [1]
  rhsContracting := [0]
  lhsNonContracting := [0]
  rhsNonContracting := [1]
  lhsBatch := []
  rhsBatch := []
  wf := dot_S4000x288_S288x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v10) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S288x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x32 : Shape := ⟨2, ![800000, 32]⟩
abbrev S288x128 : Shape := ⟨2, ![288, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x288 : Shape := ⟨2, ![800000, 288]⟩
abbrev S1x128 : Shape := ⟨2, ![1, 128]⟩
abbrev S1x1 : Shape := ⟨2, ![1, 1]⟩
abbrev S50000x256 : Shape := ⟨2, ![50000, 256]⟩

abbrev nBuf : Space → Nat
  | .hbm => 99
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x32, .f32⟩
  | .hbm, ⟨3, _⟩ => ⟨S288x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S800000x288, .f32⟩
  | .hbm, ⟨36, _⟩ => ⟨S800000x128, .f32⟩
  | .hbm, ⟨37, _⟩ => ⟨S1x128, .f32⟩
  | .hbm, ⟨38, _⟩ => ⟨S800000x128, .f32⟩
  | .hbm, ⟨39, _⟩ => ⟨S800000x128, .f32⟩
  | .hbm, ⟨40, _⟩ => ⟨S800000x128, .f32⟩
  | .hbm, ⟨41, _⟩ => ⟨S800000x128, .f32⟩
  | .hbm, ⟨42, _⟩ => ⟨S_, .f32⟩
  | .hbm, ⟨43, _⟩ => ⟨S800000x128, .f32⟩
  | .hbm, ⟨44, _⟩ => ⟨S800000x128, .f32⟩
  | .hbm, ⟨45, _⟩ => ⟨S_, .f32⟩
  | .hbm, ⟨46, _⟩ => ⟨S800000x128, .f32⟩
  | .hbm, ⟨47, _⟩ => ⟨S800000x128, .f32⟩
  | .hbm, ⟨48, _⟩ => ⟨S800000x128, .f32⟩
  | .hbm, ⟨49, _⟩ => ⟨S800000x128, .f32⟩
  | .hbm, ⟨50, _⟩ => ⟨S1x128, .f32⟩
  | .hbm, ⟨51, _⟩ => ⟨S800000x128, .f32⟩
  | .hbm, ⟨52, _⟩ => ⟨S800000x128, .f32⟩
  | .hbm, ⟨53, _⟩ => ⟨S800000x128, .f32⟩
  | .hbm, ⟨54, _⟩ => ⟨S800000x128, .f32⟩
  | .hbm, ⟨55, _⟩ => ⟨S_, .f32⟩
  | .hbm, ⟨56, _⟩ => ⟨S800000x128, .f32⟩
  | .hbm, ⟨57, _⟩ => ⟨S800000x128, .f32⟩
  | .hbm, ⟨58, _⟩ => ⟨S_, .f32⟩
  | .hbm, ⟨59, _⟩ => ⟨S800000x128, .f32⟩
  | .hbm, ⟨60, _⟩ => ⟨S800000x128, .f32⟩
  | .hbm, ⟨61, _⟩ => ⟨S800000x128, .f32⟩
  | .hbm, ⟨62, _⟩ => ⟨S800000x1, .f32⟩
  | .hbm, ⟨63, _⟩ => ⟨S1x1, .f32⟩
  | .hbm, ⟨64, _⟩ => ⟨S800000x1, .f32⟩
  | .hbm, ⟨65, _⟩ => ⟨S800000x1, .f32⟩
  | .hbm, ⟨66, _⟩ => ⟨S800000x1, .f32⟩
  | .hbm, ⟨67, _⟩ => ⟨S800000x1, .f32⟩
  | .hbm, ⟨68, _⟩ => ⟨S_, .f32⟩
  | .hbm, ⟨69, _⟩ => ⟨S800000x1, .f32⟩
  | .hbm, ⟨70, _⟩ => ⟨S800000x1, .f32⟩
  | .hbm, ⟨71, _⟩ => ⟨S_, .f32⟩
  | .hbm, ⟨72, _⟩ => ⟨S800000x1, .f32⟩
  | .hbm, ⟨73, _⟩ => ⟨S800000x1, .f32⟩
  | .hbm, ⟨74, _⟩ => ⟨S800000x128, .f32⟩
  | .hbm, ⟨75, _⟩ => ⟨S800000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S50000x256, .f32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000x128, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S1x128, .f32⟩
  | .hbm, ⟨96, _⟩ => ⟨S50000x128, .f32⟩
  | .hbm, ⟨97, _⟩ => ⟨S50000x128, .f32⟩
  | .hbm, ⟨98, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst : Ref sig .tc := ⟨.hbm, 68, rfl⟩
abbrev main_v35 : Ref sig .tc := ⟨.hbm, 69, rfl⟩
abbrev main_v36 : Ref sig .tc := ⟨.hbm, 70, rfl⟩
abbrev main_cst_3 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_4 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_call2_v0 : Ref sig .tc := ⟨.hbm, 85, rfl⟩
abbrev main_call2_v1 : Ref sig .tc := ⟨.hbm, 86, rfl⟩
abbrev main_call2_cst : Ref sig .tc := ⟨.hbm, 87, rfl⟩
abbrev main_call2_v2 : Ref sig .tc := ⟨.hbm, 88, rfl⟩
abbrev main_call2_v3 : Ref sig .tc := ⟨.hbm, 89, rfl⟩
abbrev main_call2_cst_0 : Ref sig .tc := ⟨.hbm, 90, rfl⟩
abbrev main_call2_v4 : Ref sig .tc := ⟨.hbm, 91, rfl⟩
abbrev main_call2_v5 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x32_S800000x288_d1 : Shape.Concatenates [S800000x128, S800000x128, S800000x32] S800000x288 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x288_S288x128_S800000x128_1_0_0_1_n_n_wf : DotDims.WF S800000x288 S288x128 S800000x128 [1] [0] [0] [1] [] []
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x288_S288x128_S800000x128_1_0_0_1_n_n : DotDims S800000x288 S288x128 S800000x128 where
  lhsContracting := [1]
  rhsContracting := [0]
  lhsNonContracting := [0]
  rhsNonContracting := [1]
  lhsBatch := []
  rhsBatch := []
  wf := dot_S800000x288_S288x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
import proofs.«168316_j46334107189561_1_alg».proof.Proof.Gen.ReferenceIdeal
import Idealize.ShloMosaic.PureOps.Ideal

noncomputable section

/-! # One message-passing layer, as whole-array functions on the extended reals

`N = 50000` nodes with `H = 128` features, `E = 800000` edges with `32` invariants each. For an edge `e` from node
`s e` to node `r e` the layer forms the row `[x (s e) ‖ x (r e) ‖ inv e]` of `288` entries, sends it through two dense
layers with `silu z = z · 1 / (1 + e^(−z))` after each, weighs the resulting message row by a scalar gate
`1 / (1 + e^(−(msg · We + be)))`, adds every weighted message row into the row of its receiving node, and updates the
node rows by a third and fourth dense layer over `[x ‖ aggregate]` and a residual sum. Every function below is written
with the host's operations over whole arrays: the reference computes exactly these, and each row block the kernel
computes is a row block of these. -/

namespace Cert.Spec

open Idealize.ShloMosaic Cert.ReferenceIdeal Cert.ReferenceIdeal.Gen

/-- The integer arrays' type, as the host operations take it. -/
abbrev IArr (S : Shape) : Type := (⟨S, .i32⟩ : BufTy).Contents (Elt Ideal)

/-! ## Rows of edges: `[E, ·]` -/

/-- `silu z = z · 1 / (1 + e^(−z))`, entry by entry, on an `[E, H]` array. -/
def siluE (z : FVec Ideal S800000x128 .f32) : FVec Ideal S800000x128 .f32 :=
  mulf z (Host.divf (broadcastInDim S800000x128 ![] bcast_S_S800000x128 (constant S_ .f32 0x3F800000#32))
    (addf (broadcastInDim S800000x128 ![] bcast_S_S800000x128 (constant S_ .f32 0x3F800000#32)) (Host.exp (Host.negf z))))

/-- A bias row laid under each of the `E` rows. -/
def biasE (b : FVec Ideal S128 .f32) : FVec Ideal S800000x128 .f32 :=
  broadcastInDim S800000x128 ![0, 1] bcast_S1x128_S800000x128_0_1 (broadcastInDim S1x128 ![1] bcast_S128_S1x128_1 b)

/-- The first dense layer of the message: `silu ([xs ‖ xr ‖ inv] · Wm1 + bm1)`. -/
def hidden (xs xr : FVec Ideal S800000x128 .f32) (inv : FVec Ideal S800000x32 .f32) (Wm1 : FVec Ideal S288x128 .f32)
    (bm1 : FVec Ideal S128 .f32) : FVec Ideal S800000x128 .f32 :=
  siluE (addf (Host.dotGeneral dot_S800000x288_S288x128_S800000x128_1_0_0_1_n_n none
    (concatenate S800000x288 1 [⟨S800000x128, xs⟩, ⟨S800000x128, xr⟩, ⟨S800000x32, inv⟩]
      concatenates_S800000x128_S800000x128_S800000x32_S800000x288_d1) Wm1) (biasE bm1))

/-- The second dense layer: `silu (h · Wm2 + bm2)`. -/
def message (h : FVec Ideal S800000x128 .f32) (Wm2 : FVec Ideal S128x128 .f32) (bm2 : FVec Ideal S128 .f32) :
    FVec Ideal S800000x128 .f32 :=
  siluE (addf (Host.dotGeneral dot_S800000x128_S128x128_S800000x128_1_0_0_1_n_n none h Wm2) (biasE bm2))

/-- The gate of each edge, a column: `1 / (1 + e^(−(g · We + be)))`. -/
def gate (g : FVec Ideal S800000x128 .f32) (We : FVec Ideal S128x1 .f32) (be : FVec Ideal S1 .f32) :
    FVec Ideal S800000x1 .f32 :=
  Host.divf (broadcastInDim S800000x1 ![] bcast_S_S800000x1 (constant S_ .f32 0x3F800000#32))
    (addf (broadcastInDim S800000x1 ![] bcast_S_S800000x1 (constant S_ .f32 0x3F800000#32))
      (Host.exp (Host.negf (addf (Host.dotGeneral dot_S800000x128_S128x1_S800000x1_1_0_0_1_n_n none g We)
        (broadcastInDim S800000x1 ![0, 1] bcast_S1x1_S800000x1_0_1 (broadcastInDim S1x1 ![1] bcast_S1_S1x1_1 be))))))

/-- A message array weighed row by row by its own gate. -/
def weigh (g : FVec Ideal S800000x128 .f32) (We : FVec Ideal S128x1 .f32) (be : FVec Ideal S1 .f32) :
    FVec Ideal S800000x128 .f32 :=
  mulf g (broadcastInDim S800000x128 ![0, 1] bcast_S800000x1_S800000x128_0_1 (gate g We be))

/-- The gated messages of all edges from the two gathered endpoint arrays and the invariants. -/
def gated (xs xr : FVec Ideal S800000x128 .f32) (inv : FVec Ideal S800000x32 .f32) (Wm1 : FVec Ideal S288x128 .f32)
    (bm1 : FVec Ideal S128 .f32) (Wm2 : FVec Ideal S128x128 .f32) (bm2 : FVec Ideal S128 .f32)
    (We : FVec Ideal S128x1 .f32) (be : FVec Ideal S1 .f32) : FVec Ideal S800000x128 .f32 :=
  weigh (message (hidden xs xr inv Wm1 bm1) Wm2 bm2) We be

/-! ## The two irregular steps: gathering endpoint rows, adding messages into nodes -/

/-- Row 0 of the edge list: the sending node of each edge. -/
def senders (adj : IArr S2x800000) : IArr S800000 :=
  shapeCast _ (extractStridedSlice S1x800000 ![0, 0] adj slices_S2x800000_S1x800000_0_0) shapeCasts_S1x800000_S800000

/-- Row 1 of the edge list: the receiving node of each edge. -/
def receivers (adj : IArr S2x800000) : IArr S800000 :=
  shapeCast _ (extractStridedSlice S1x800000 ![1, 0] adj slices_S2x800000_S1x800000_1_0) shapeCasts_S1x800000_S800000

/-- A negative node number counts from the end: `ix + N` where `ix < 0`. -/
def wrap (ix : IArr S800000) : IArr S800000 :=
  select (cmpi .slt ix (broadcastInDim S800000 ![] bcast_S_S800000 (constantI S_ 32 0#32)))
    (addi ix (broadcastInDim S800000 ![] bcast_S_S800000 (constantI S_ 32 50000#32))) ix

/-- The rows of `x` at the (wrapped) node numbers `ix`, one per edge. -/
def rowsAt (x : FVec Ideal S50000x128 .f32) (ix : IArr S800000) : FVec Ideal S800000x128 .f32 :=
  Host.gather gather_S50000x128_S800000x1_S800000x128_1_0_n_n_0_1_1128 x
    (broadcastInDim S800000x1 ![0] bcast_S800000_S800000x1_0 (wrap ix))

/-- Each edge's row added into the row of node `ix e`, starting from zero. -/
def addInto (ix : IArr S800000) (u : FVec Ideal S800000x128 .f32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 ix) u

/-! ## Rows of nodes: `[N, ·]` -/

/-- `silu` on an `[N, H]` array. -/
def siluN (z : FVec Ideal S50000x128 .f32) : FVec Ideal S50000x128 .f32 :=
  mulf z (Host.divf (broadcastInDim S50000x128 ![] bcast_S_S50000x128 (constant S_ .f32 0x3F800000#32))
    (addf (broadcastInDim S50000x128 ![] bcast_S_S50000x128 (constant S_ .f32 0x3F800000#32)) (Host.exp (Host.negf z))))

/-- A bias row laid under each of the `N` rows. -/
def biasN (b : FVec Ideal S128 .f32) : FVec Ideal S50000x128 .f32 :=
  broadcastInDim S50000x128 ![0, 1] bcast_S1x128_S50000x128_0_1 (broadcastInDim S1x128 ![1] bcast_S128_S1x128_1 b)

/-- The node update: `x + (silu ([x ‖ a] · Wu1 + bu1) · Wu2 + bu2)`. -/
def update (x a : FVec Ideal S50000x128 .f32) (Wu1 : FVec Ideal S256x128 .f32) (bu1 : FVec Ideal S128 .f32)
    (Wu2 : FVec Ideal S128x128 .f32) (bu2 : FVec Ideal S128 .f32) : FVec Ideal S50000x128 .f32 :=
  addf x (addf (Host.dotGeneral dot_S50000x128_S128x128_S50000x128_1_0_0_1_n_n none
    (siluN (addf (Host.dotGeneral dot_S50000x256_S256x128_S50000x128_1_0_0_1_n_n none
      (concatenate S50000x256 1 [⟨S50000x128, x⟩, ⟨S50000x128, a⟩] concatenates_S50000x128_S50000x128_S50000x256_d1) Wu1)
      (biasN bu1))) Wu2) (biasN bu2))

/-! ## The layer -/

/-- The whole layer: gather, message, gate, add into the receivers, update. -/
def layer (x : FVec Ideal S50000x128 .f32) (adj : IArr S2x800000) (inv : FVec Ideal S800000x32 .f32)
    (Wm1 : FVec Ideal S288x128 .f32) (bm1 : FVec Ideal S128 .f32) (Wm2 : FVec Ideal S128x128 .f32) (bm2 : FVec Ideal S128 .f32)
    (We : FVec Ideal S128x1 .f32) (be : FVec Ideal S1 .f32) (Wu1 : FVec Ideal S256x128 .f32) (bu1 : FVec Ideal S128 .f32)
    (Wu2 : FVec Ideal S128x128 .f32) (bu2 : FVec Ideal S128 .f32) : FVec Ideal S50000x128 .f32 :=
  update x (addInto (receivers adj)
    (gated (rowsAt x (senders adj)) (rowsAt x (receivers adj)) inv Wm1 bm1 Wm2 bm2 We be)) Wu1 bu1 Wu2 bu2

end Cert.Spec

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.LibRowBlock.lean ====
import Idealize.ShloMosaic.PureOps.Ideal.Laws
import Idealize.ShloMosaic.Lib.ValueIdx
import Idealize.ShloMosaic.Lib.Layout
import Idealize.ShloMosaic.Lib.ValueLayout
import Idealize.ShloMosaic.Lib.Pipeline.Value
import proofs.«168316_j46334107189561_1_alg».proof.Proof.LibPlainDot

noncomputable section

open scoped BigOperators

/-! # Row blocks of two-axis arrays

An array of `M = T · R` rows cut into `T` blocks of `R` rows (`Layout.block … 0 T t`: rows `t·R … t·R + R − 1`).
Every operation that works row by row commutes with taking a row block: the block of the result is the
operation applied to the blocks. Stated here for the operations of a dense layer: a product with a matrix
shared by all rows, a concatenation along the columns, a column slice, a bias row added to every row, a
constant, and the pointwise operations. With these, a computation on one block of rows is read as the
block of the same computation on the whole array. -/

namespace Cert.RowBlock

open Idealize.ShloMosaic Idealize.ShloMosaic.ValueIdx Idealize.ShloMosaic.Layout

variable {R M T : ℕ} {α : Type}

/-- Where entry `(r, q)` of block `t` lies in the whole array: row `t·R + r`, column `q`. -/
theorem idx_rows {N : ℕ} (hN : Tiles ⟨2, ![R, N]⟩ ⟨2, ![M, N]⟩ 0 T) (t : Fin T) (y : (⟨2, ![R, N]⟩ : Shape).Idx) :
    (hN.idx t y 0).val = t.val * R + (y 0).val ∧ (hN.idx t y 1).val = (y 1).val := ⟨rfl, rfl⟩

/-- The unit word is the real number one. -/
theorem ofBits_one : Ideal.ofBits .f32 0x3F800000#32 = 1 := by
  simp [Ideal.ofBits, Ideal.ieee, -EReal.coe_mul]; norm_num

/-! ## A product with a shared matrix -/

/-- Rows `t·R …` of `X · W` are (rows `t·R …` of `X`) `· W`: entry `(r, c)` of either is
    `∑ k, X (t·R + r, k) · W (k, c)`. The block's product is a matrix-unit product into the zero accumulator,
    the whole array's a host product; on the extended reals both are that sum. -/
theorem dot_rows {K N : ℕ} {φ₁ φ₂ : FTy}
    (d₁ : DotDims ⟨2, ![R, K]⟩ ⟨2, ![K, N]⟩ ⟨2, ![R, N]⟩) (hd₁ : d₁ = DotDims.plain R K N)
    (d₂ : DotDims ⟨2, ![M, K]⟩ ⟨2, ![K, N]⟩ ⟨2, ![M, N]⟩) (hd₂ : d₂ = DotDims.plain M K N)
    (hK : Tiles ⟨2, ![R, K]⟩ ⟨2, ![M, K]⟩ 0 T) (hN : Tiles ⟨2, ![R, N]⟩ ⟨2, ![M, N]⟩ 0 T)
    (p₁ p₂ : Option ContractPrecision) (t : Fin T)
    (X : FVec Ideal ⟨2, ![M, K]⟩ φ₁) (W : FVec Ideal ⟨2, ![K, N]⟩ φ₂) :
    matmul d₁ p₁ (block ⟨2, ![R, K]⟩ ⟨2, ![M, K]⟩ 0 T t X hK) W (constant ⟨2, ![R, N]⟩ .f32 0x00000000#32)
      = block ⟨2, ![R, N]⟩ ⟨2, ![M, N]⟩ 0 T t (Host.dotGeneral d₂ p₂ X W) hN := by
  funext y
  refine (Cert.PlainDot.matmul_zero_apply d₁ hd₁ p₁ _ W y).trans ?_
  refine Eq.trans ?_ (Cert.PlainDot.dotGeneral_apply d₂ hd₂ p₂ .single X W (hN.idx t y)).symm
  refine Finset.sum_congr rfl fun k _ => ?_
  have e1 : hK.idx t (ix2 (y 0) k) = ix2 (hN.idx t y 0) k := by
    funext a
    match a with
    | ⟨0, _⟩ => exact Fin.ext rfl
    | ⟨1, _⟩ => exact Fin.ext rfl
  have e2 : (ix2 k (y 1) : (⟨2, ![K, N]⟩ : Shape).Idx) = ix2 k (hN.idx t y 1) := by
    funext a
    match a with
    | ⟨0, _⟩ => exact Fin.ext rfl
    | ⟨1, _⟩ => exact Fin.ext rfl
  rw [block_apply, e1, e2]
  rfl

/-- The same with both operands first rounded to a narrower format, which on the extended reals changes nothing. -/
theorem dot_rows_trunc {K N : ℕ} {φ₁ φ₂ ψ₁ ψ₂ : FTy} (h₁ : ψ₁.bits < φ₁.bits) (h₂ : ψ₂.bits < φ₂.bits)
    (d₁ : DotDims ⟨2, ![R, K]⟩ ⟨2, ![K, N]⟩ ⟨2, ![R, N]⟩) (hd₁ : d₁ = DotDims.plain R K N)
    (d₂ : DotDims ⟨2, ![M, K]⟩ ⟨2, ![K, N]⟩ ⟨2, ![M, N]⟩) (hd₂ : d₂ = DotDims.plain M K N)
    (hK : Tiles ⟨2, ![R, K]⟩ ⟨2, ![M, K]⟩ 0 T) (hN : Tiles ⟨2, ![R, N]⟩ ⟨2, ![M, N]⟩ 0 T)
    (p₁ p₂ : Option ContractPrecision) (t : Fin T)
    (X : FVec Ideal ⟨2, ![M, K]⟩ φ₁) (W : FVec Ideal ⟨2, ![K, N]⟩ φ₂) :
    matmul d₁ p₁ (truncf ψ₁ (block ⟨2, ![R, K]⟩ ⟨2, ![M, K]⟩ 0 T t X hK) h₁) (truncf ψ₂ W h₂) (constant ⟨2, ![R, N]⟩ .f32 0x00000000#32)
      = block ⟨2, ![R, N]⟩ ⟨2, ![M, N]⟩ 0 T t (Host.dotGeneral d₂ p₂ X W) hN :=
  dot_rows (φ₁ := φ₁) (φ₂ := φ₂) d₁ hd₁ d₂ hd₂ hK hN p₁ p₂ t X W

/-! ## Pointwise operations -/

section Pointwise
variable {N : ℕ} {φ : FTy} (hN : Tiles ⟨2, ![R, N]⟩ ⟨2, ![M, N]⟩ 0 T) (t : Fin T)
  (X Y : FVec Ideal ⟨2, ![M, N]⟩ φ)

theorem addf_rows : addf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (addf X Y) hN := rfl
theorem subf_rows : subf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (subf X Y) hN := rfl
theorem mulf_rows : mulf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (mulf X Y) hN := rfl
theorem maximumf_rows : maximumf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (maximumf X Y) hN := rfl
/-- The kernel's hyperbolic tangent and the host's are one function on the extended reals. -/
theorem tanh_rows : tanh (block ⟨2, ![R, N]⟩ ⟨2, ![M, N]⟩ 0 T t X hN)
    = block ⟨2, ![R, N]⟩ ⟨2, ![M, N]⟩ 0 T t (Host.tanh X) hN := rfl
/-- The logistic function is `1 / (1 + e^(−x))`, which the host spells out with the unit word for `1`. -/
theorem logistic_rows (hb : (⟨0, ![]⟩ : Shape).BroadcastsInDim ⟨2, ![M, N]⟩ (![] : Fin 0 → Fin 2)) :
    logistic (block ⟨2, ![R, N]⟩ ⟨2, ![M, N]⟩ 0 T t (X : FVec Ideal ⟨2, ![M, N]⟩ .f32) hN)
    = block ⟨2, ![R, N]⟩ ⟨2, ![M, N]⟩ 0 T t
        (Host.divf (broadcastInDim ⟨2, ![M, N]⟩ ![] hb (constant (F := Ideal) ⟨0, ![]⟩ .f32 0x3F800000#32))
          (addf (broadcastInDim ⟨2, ![M, N]⟩ ![] hb (constant (F := Ideal) ⟨0, ![]⟩ .f32 0x3F800000#32)) (Host.exp (Host.negf X)))) hN := by
  funext y
  show FloatOps.logistic (X (hN.idx t y))
    = FloatOps.hostDivf (Ideal.ofBits .f32 0x3F800000#32)
        (FloatOps.addf (Ideal.ofBits .f32 0x3F800000#32) (FloatOps.hostUnary .exp (FloatOps.hostNegf (X (hN.idx t y)))))
  rw [ofBits_one]
  rfl
end Pointwise

/-! ## Constants, bias rows, column slices, concatenation along the columns -/

/-- A constant array's row block is the constant block. -/
theorem splat_rows {N : ℕ} (hN : Tiles ⟨2, ![R, N]⟩ ⟨2, ![M, N]⟩ 0 T) (t : Fin T)
    (hb : (⟨0, ![]⟩ : Shape).BroadcastsInDim ⟨2, ![M, N]⟩ (![] : Fin 0 → Fin 2)) (w : BitVec 32) :
    broadcast ⟨2, ![R, N]⟩ (Scalar.ofBits (F := Ideal) .f32 w)
      = block ⟨2, ![R, N]⟩ ⟨2, ![M, N]⟩ 0 T t (broadcastInDim ⟨2, ![M, N]⟩ ![] hb (constant (F := Ideal) ⟨0, ![]⟩ .f32 w)) hN := by
  funext y
  rfl

/-- A bias row laid under every row: the block sees the same row. -/
theorem bias_rows {N : ℕ} (hN : Tiles ⟨2, ![R, N]⟩ ⟨2, ![M, N]⟩ 0 T) (t : Fin T)
    (hc : (⟨1, ![N]⟩ : Shape).ShapeCasts ⟨2, ![1, N]⟩) (hbt : (⟨2, ![1, N]⟩ : Shape).Broadcasts ⟨2, ![R, N]⟩)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (b : (⟨1, ![N]⟩ : Shape).Idx → α) :
    broadcastTo ⟨2, ![R, N]⟩ (shapeCast ⟨2, ![1, N]⟩ b hc) hbt
      = block ⟨2, ![R, N]⟩ ⟨2, ![M, N]⟩ 0 T t (broadcastInDim ⟨2, ![M, N]⟩ ![0, 1] h2 (broadcastInDim ⟨2, ![1, N]⟩ ![1] h1 b)) hN := by
  funext y
  obtain ⟨p, q, rfl⟩ : ∃ (p : Fin R) (q : Fin N), y = ix2 p q := ⟨y 0, y 1, eq_ix2 y⟩
  rw [broadcastTo_1b_ab_apply, shapeCast_a_1a_apply, block_apply]
  refine Eq.symm ?_
  refine (broadcastInDim_apply ![0, 1] h2 _ (hN.idx t (ix2 p q)) (ix2 (0 : Fin 1) q) fun a => ?_).trans ?_
  · match a with
    | ⟨0, _⟩ => rfl
    | ⟨1, _⟩ =>
      show q.val = if N = 1 then 0 else q.val
      split
      · have := q.isLt; omega
      · rfl
  · refine broadcastInDim_apply ![1] h1 b (ix2 (0 : Fin 1) q) (ix1 q) fun a => ?_
    match a with
    | ⟨0, _⟩ =>
      show q.val = if N = 1 then 0 else q.val
      split
      · have := q.isLt; omega
      · rfl

/-- Columns `o … o + N' − 1`: of the block, or the block of those columns. -/
theorem slice_rows {N N' : ℕ} (o : ℕ) (hN : Tiles ⟨2, ![R, N]⟩ ⟨2, ![M, N]⟩ 0 T) (hN' : Tiles ⟨2, ![R, N']⟩ ⟨2, ![M, N']⟩ 0 T) (t : Fin T)
    (hs : (⟨2, ![R, N]⟩ : Shape).Slices ![0, o] ⟨2, ![R, N']⟩) (hs' : (⟨2, ![M, N]⟩ : Shape).Slices ![0, o] ⟨2, ![M, N']⟩)
    (X : (⟨2, ![M, N]⟩ : Shape).Idx → α) :
    extractStridedSlice ⟨2, ![R, N']⟩ ![0, o] (block ⟨2, ![R, N]⟩ ⟨2, ![M, N]⟩ 0 T t X hN) hs
      = block ⟨2, ![R, N']⟩ ⟨2, ![M, N']⟩ 0 T t (extractStridedSlice ⟨2, ![M, N']⟩ ![0, o] X hs') hN' := by
  funext y
  show X _ = X _
  congr 1
  funext a
  match a with
  | ⟨0, _⟩ =>
    apply Fin.ext
    show t.val * R + (0 + (y 0).val) = 0 + (t.val * R + (y 0).val)
    omega
  | ⟨1, _⟩ => exact Fin.ext rfl

/-- Two arrays side by side: the block of the pair is the pair of the blocks. -/
theorem concat2_rows {N₁ N₂ N : ℕ}
    (h₁ : Tiles ⟨2, ![R, N₁]⟩ ⟨2, ![M, N₁]⟩ 0 T) (h₂ : Tiles ⟨2, ![R, N₂]⟩ ⟨2, ![M, N₂]⟩ 0 T) (hN : Tiles ⟨2, ![R, N]⟩ ⟨2, ![M, N]⟩ 0 T)
    (t : Fin T)
    (hc : Shape.Concatenates [(⟨2, ![R, N₁]⟩ : Shape), ⟨2, ![R, N₂]⟩] ⟨2, ![R, N]⟩ 1)
    (hc' : Shape.Concatenates [(⟨2, ![M, N₁]⟩ : Shape), ⟨2, ![M, N₂]⟩] ⟨2, ![M, N]⟩ 1)
    (A : (⟨2, ![M, N₁]⟩ : Shape).Idx → α) (B : (⟨2, ![M, N₂]⟩ : Shape).Idx → α) :
    concatenate ⟨2, ![R, N]⟩ 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc
      = block ⟨2, ![R, N]⟩ ⟨2, ![M, N]⟩ 0 T t (concatenate ⟨2, ![M, N]⟩ 1 [⟨⟨2, ![M, N₁]⟩, A⟩, ⟨⟨2, ![M, N₂]⟩, B⟩] hc') hN := by
  funext y
  obtain ⟨p, q, rfl⟩ : ∃ (p : Fin R) (q : Fin N), y = ix2 p q := ⟨y 0, y 1, eq_ix2 y⟩
  have hsum : N₁ + (N₂ + (0)) = N := hc.2.2
  have hq := q.isLt
  rw [block_apply]
  by_cases hc0 : q.val < N₁
  · have c0 : q.val < N₁ := hc0
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc (ix2 p q) 0 (by show 0 < 2; omega) ⟨2, ![R, N₁]⟩ _ rfl rfl (0) rfl (ix2 p ⟨q.val, c0⟩) (fun b hb => ?_) (Nat.zero_add _)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩] hc' (hN.idx t (ix2 p q)) 0 (by show 0 < 2; omega) ⟨2, ![M, N₁]⟩ A rfl rfl (0) rfl (h₁.idx t (ix2 p ⟨q.val, c0⟩)) (fun b hb => ?_) (Nat.zero_add _))
    match b with
    | ⟨0, _⟩ => rfl
    | ⟨1, _⟩ => exact absurd rfl hb
  · have c1 : q.val - (N₁) < N₂ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc (ix2 p q) 1 (by show 1 < 2; omega) ⟨2, ![R, N₂]⟩ _ rfl rfl (N₁) (by simp [List.take, List.map, List.sum_cons]; try omega) (ix2 p ⟨q.val - (N₁), c1⟩) (fun b hb => ?_) (by show N₁ + (q.val - (N₁)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩] hc' (hN.idx t (ix2 p q)) 1 (by show 1 < 2; omega) ⟨2, ![M, N₂]⟩ B rfl rfl (N₁) (by simp [List.take, List.map, List.sum_cons]; try omega) (h₂.idx t (ix2 p ⟨q.val - (N₁), c1⟩)) (fun b hb => ?_) (by show N₁ + (q.val - (N₁)) = q.val; omega))
    match b with
    | ⟨0, _⟩ => rfl
    | ⟨1, _⟩ => exact absurd rfl hb

/-- Four arrays side by side. -/
theorem concat4_rows {N₁ N₂ N₃ N₄ N : ℕ}
    (h₁ : Tiles ⟨2, ![R, N₁]⟩ ⟨2, ![M, N₁]⟩ 0 T) (h₂ : Tiles ⟨2, ![R, N₂]⟩ ⟨2, ![M, N₂]⟩ 0 T)
    (h₃ : Tiles ⟨2, ![R, N₃]⟩ ⟨2, ![M, N₃]⟩ 0 T) (h₄ : Tiles ⟨2, ![R, N₄]⟩ ⟨2, ![M, N₄]⟩ 0 T) (hN : Tiles ⟨2, ![R, N]⟩ ⟨2, ![M, N]⟩ 0 T)
    (t : Fin T)
    (hc : Shape.Concatenates [(⟨2, ![R, N₁]⟩ : Shape), ⟨2, ![R, N₂]⟩, ⟨2, ![R, N₃]⟩, ⟨2, ![R, N₄]⟩] ⟨2, ![R, N]⟩ 1)
    (hc' : Shape.Concatenates [(⟨2, ![M, N₁]⟩ : Shape), ⟨2, ![M, N₂]⟩, ⟨2, ![M, N₃]⟩, ⟨2, ![M, N₄]⟩] ⟨2, ![M, N]⟩ 1)
    (A : (⟨2, ![M, N₁]⟩ : Shape).Idx → α) (B : (⟨2, ![M, N₂]⟩ : Shape).Idx → α)
    (C : (⟨2, ![M, N₃]⟩ : Shape).Idx → α) (D : (⟨2, ![M, N₄]⟩ : Shape).Idx → α) :
    concatenate ⟨2, ![R, N]⟩ 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩,
        ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc
      = block ⟨2, ![R, N]⟩ ⟨2, ![M, N]⟩ 0 T t
          (concatenate ⟨2, ![M, N]⟩ 1 [⟨⟨2, ![M, N₁]⟩, A⟩, ⟨⟨2, ![M, N₂]⟩, B⟩, ⟨⟨2, ![M, N₃]⟩, C⟩, ⟨⟨2, ![M, N₄]⟩, D⟩] hc') hN := by
  funext y
  obtain ⟨p, q, rfl⟩ : ∃ (p : Fin R) (q : Fin N), y = ix2 p q := ⟨y 0, y 1, eq_ix2 y⟩
  have hsum : N₁ + (N₂ + (N₃ + (N₄ + (0)))) = N := hc.2.2
  have hq := q.isLt
  rw [block_apply]
  by_cases hc0 : q.val < N₁
  · have c0 : q.val < N₁ := hc0
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 0 (by show 0 < 4; omega) ⟨2, ![R, N₁]⟩ _ rfl rfl (0) rfl (ix2 p ⟨q.val, c0⟩) (fun b hb => ?_) (Nat.zero_add _)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 0 (by show 0 < 4; omega) ⟨2, ![M, N₁]⟩ A rfl rfl (0) rfl (h₁.idx t (ix2 p ⟨q.val, c0⟩)) (fun b hb => ?_) (Nat.zero_add _))
    match b with
    | ⟨0, _⟩ => rfl
    | ⟨1, _⟩ => exact absurd rfl hb
  by_cases hc1 : q.val < N₁ + N₂
  · have c1 : q.val - (N₁) < N₂ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 1 (by show 1 < 4; omega) ⟨2, ![R, N₂]⟩ _ rfl rfl (N₁) (by simp [List.take, List.map, List.sum_cons]; try omega) (ix2 p ⟨q.val - (N₁), c1⟩) (fun b hb => ?_) (by show N₁ + (q.val - (N₁)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 1 (by show 1 < 4; omega) ⟨2, ![M, N₂]⟩ B rfl rfl (N₁) (by simp [List.take, List.map, List.sum_cons]; try omega) (h₂.idx t (ix2 p ⟨q.val - (N₁), c1⟩)) (fun b hb => ?_) (by show N₁ + (q.val - (N₁)) = q.val; omega))
    match b with
    | ⟨0, _⟩ => rfl
    | ⟨1, _⟩ => exact absurd rfl hb
  by_cases hc2 : q.val < N₁ + N₂ + N₃
  · have c2 : q.val - (N₁ + N₂) < N₃ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 2 (by show 2 < 4; omega) ⟨2, ![R, N₃]⟩ _ rfl rfl (N₁ + N₂) (by simp [List.take, List.map, List.sum_cons]; try omega) (ix2 p ⟨q.val - (N₁ + N₂), c2⟩) (fun b hb => ?_) (by show N₁ + N₂ + (q.val - (N₁ + N₂)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 2 (by show 2 < 4; omega) ⟨2, ![M, N₃]⟩ C rfl rfl (N₁ + N₂) (by simp [List.take, List.map, List.sum_cons]; try omega) (h₃.idx t (ix2 p ⟨q.val - (N₁ + N₂), c2⟩)) (fun b hb => ?_) (by show N₁ + N₂ + (q.val - (N₁ + N₂)) = q.val; omega))
    match b with
    | ⟨0, _⟩ => rfl
    | ⟨1, _⟩ => exact absurd rfl hb
  · have c3 : q.val - (N₁ + N₂ + N₃) < N₄ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 3 (by show 3 < 4; omega) ⟨2, ![R, N₄]⟩ _ rfl rfl (N₁ + N₂ + N₃) (by simp [List.take, List.map, List.sum_cons]; try omega) (ix2 p ⟨q.val - (N₁ + N₂ + N₃), c3⟩) (fun b hb => ?_) (by show N₁ + N₂ + N₃ + (q.val - (N₁ + N₂ + N₃)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 3 (by show 3 < 4; omega) ⟨2, ![M, N₄]⟩ D rfl rfl (N₁ + N₂ + N₃) (by simp [List.take, List.map, List.sum_cons]; try omega) (h₄.idx t (ix2 p ⟨q.val - (N₁ + N₂ + N₃), c3⟩)) (fun b hb => ?_) (by show N₁ + N₂ + N₃ + (q.val - (N₁ + N₂ + N₃)) = q.val; omega))
    match b with
    | ⟨0, _⟩ => rfl
    | ⟨1, _⟩ => exact absurd rfl hb

end Cert.RowBlock

end
-- ==== Proof.LibRowBlockGate.lean ====
import Idealize.ShloMosaic.PureOps.Ideal.Laws
import Idealize.ShloMosaic.Lib.ValueIdx
import Idealize.ShloMosaic.Lib.Layout
import Idealize.ShloMosaic.Lib.Pipeline.Value
import proofs.«168316_j46334107189561_1_alg».proof.Proof.LibRowBlock

noncomputable section

/-! # Row blocks: the exponential, a quotient, and a column laid across the columns

Three more operations that work row by row and so commute with taking a block of rows (rows
`t·R … t·R + R − 1` of an array of `M = T·R` rows): the exponential and the quotient, entry by entry, and a column
`[M, 1]` copied across `N` columns, where entry `(r, q)` of the result is the column's entry in row `r`. On the
extended reals the on-chip exponential and quotient are the host's. -/

namespace Cert.RowBlock

open Idealize.ShloMosaic Idealize.ShloMosaic.ValueIdx Idealize.ShloMosaic.Layout

variable {R M T : ℕ} {α : Type}

section Pointwise
variable {N : ℕ} {φ : FTy} (hN : Tiles ⟨2, ![R, N]⟩ ⟨2, ![M, N]⟩ 0 T) (t : Fin T)
  (X Y : FVec Ideal ⟨2, ![M, N]⟩ φ)

/-- `e^x` of a block of rows is the block of `e^x`. -/
theorem exp_rows : exp (block ⟨2, ![R, N]⟩ ⟨2, ![M, N]⟩ 0 T t X hN)
    = block ⟨2, ![R, N]⟩ ⟨2, ![M, N]⟩ 0 T t (Host.exp X) hN := rfl

/-- `x / y` of two blocks of rows is the block of `x / y`. -/
theorem divf_rows : divf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (Host.divf X Y) hN := rfl
end Pointwise

/-- A column copied across `N` columns: entry `(r, q)` of the block is the column's entry in row `t·R + r`, which
    is entry `(r, 0)` of the column's own block. -/
theorem column_rows {N : ℕ} (h1 : Tiles ⟨2, ![R, 1]⟩ ⟨2, ![M, 1]⟩ 0 T) (hN : Tiles ⟨2, ![R, N]⟩ ⟨2, ![M, N]⟩ 0 T) (t : Fin T)
    (hbt : (⟨2, ![R, 1]⟩ : Shape).Broadcasts ⟨2, ![R, N]⟩)
    (hb : (⟨2, ![M, 1]⟩ : Shape).BroadcastsInDim ⟨2, ![M, N]⟩ (![0, 1] : Fin 2 → Fin 2))
    (col : (⟨2, ![M, 1]⟩ : Shape).Idx → α) :
    broadcastTo ⟨2, ![R, N]⟩ (block ⟨2, ![R, 1]⟩ ⟨2, ![M, 1]⟩ 0 T t col h1) hbt
      = block ⟨2, ![R, N]⟩ ⟨2, ![M, N]⟩ 0 T t (broadcastInDim ⟨2, ![M, N]⟩ ![0, 1] hb col) hN := by
  funext y
  obtain ⟨p, q, rfl⟩ : ∃ (p : Fin R) (q : Fin N), y = ix2 p q := ⟨y 0, y 1, eq_ix2 y⟩
  have hl : broadcastTo ⟨2, ![R, N]⟩ (block ⟨2, ![R, 1]⟩ ⟨2, ![M, 1]⟩ 0 T t col h1) hbt (ix2 p q)
      = block ⟨2, ![R, 1]⟩ ⟨2, ![M, 1]⟩ 0 T t col h1 (ix2 p (0 : Fin 1)) := by
    refine broadcastTo_apply _ hbt (ix2 p q) (ix2 p (0 : Fin 1)) fun a => ?_
    match a with
    | ⟨0, _⟩ =>
      show p.val = if R = 1 then 0 else p.val
      split
      · have := p.isLt; omega
      · rfl
    | ⟨1, _⟩ => rfl
  rw [hl, block_apply, block_apply]
  refine Eq.symm (broadcastInDim_apply ![0, 1] hb col (hN.idx t (ix2 p q)) (h1.idx t (ix2 p (0 : Fin 1))) fun a => ?_)
  match a with
  | ⟨0, _⟩ =>
    show t.val * R + p.val = if M = 1 then 0 else t.val * R + p.val
    split
    · rename_i hM
      have hlt : t.val * R + p.val < M := (hN.idx t (ix2 p q) 0).isLt
      omega
    · rfl
  | ⟨1, _⟩ => rfl

end Cert.RowBlock

end
-- ==== Proof.LibConcat3Rows.lean ====
import Idealize.ShloMosaic.PureOps.Ideal.Laws
import Idealize.ShloMosaic.Lib.ValueIdx
import Idealize.ShloMosaic.Lib.Layout
import Idealize.ShloMosaic.Lib.ValueLayout
import Idealize.ShloMosaic.Lib.Pipeline.Value

noncomputable section

/-! # Row blocks: three arrays side by side

An array of `M = T · R` rows is cut into `T` blocks of `R` rows. Laying three arrays side by side (a concatenation
along the columns) works row by row, so it commutes with taking a block of rows: the block of the triple is the triple
of the blocks. Column `q` of the result lies in the first array when `q < N₁`, in the second at column `q − N₁` when
`q < N₁ + N₂`, and otherwise in the third at column `q − (N₁ + N₂)`; the row is the same in all of them. -/

namespace Cert.RowBlock

open Idealize.ShloMosaic Idealize.ShloMosaic.ValueIdx Idealize.ShloMosaic.Layout

variable {R M T : ℕ} {α : Type}

/-- Three arrays side by side: the block of rows of the triple is the triple of the blocks of rows. -/
theorem concat3_rows {N₁ N₂ N₃ N : ℕ}
    (h₁ : Tiles ⟨2, ![R, N₁]⟩ ⟨2, ![M, N₁]⟩ 0 T) (h₂ : Tiles ⟨2, ![R, N₂]⟩ ⟨2, ![M, N₂]⟩ 0 T)
    (h₃ : Tiles ⟨2, ![R, N₃]⟩ ⟨2, ![M, N₃]⟩ 0 T) (hN : Tiles ⟨2, ![R, N]⟩ ⟨2, ![M, N]⟩ 0 T)
    (t : Fin T)
    (hc : Shape.Concatenates [(⟨2, ![R, N₁]⟩ : Shape), ⟨2, ![R, N₂]⟩, ⟨2, ![R, N₃]⟩] ⟨2, ![R, N]⟩ 1)
    (hc' : Shape.Concatenates [(⟨2, ![M, N₁]⟩ : Shape), ⟨2, ![M, N₂]⟩, ⟨2, ![M, N₃]⟩] ⟨2, ![M, N]⟩ 1)
    (A : (⟨2, ![M, N₁]⟩ : Shape).Idx → α) (B : (⟨2, ![M, N₂]⟩ : Shape).Idx → α) (C : (⟨2, ![M, N₃]⟩ : Shape).Idx → α) :
    concatenate ⟨2, ![R, N]⟩ 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩] hc
      = block ⟨2, ![R, N]⟩ ⟨2, ![M, N]⟩ 0 T t (concatenate ⟨2, ![M, N]⟩ 1 [⟨⟨2, ![M, N₁]⟩, A⟩, ⟨⟨2, ![M, N₂]⟩, B⟩, ⟨⟨2, ![M, N₃]⟩, C⟩] hc') hN := by
  funext y
  obtain ⟨p, q, rfl⟩ : ∃ (p : Fin R) (q : Fin N), y = ix2 p q := ⟨y 0, y 1, eq_ix2 y⟩
  have hsum : N₁ + (N₂ + (N₃ + (0))) = N := hc.2.2
  have hq := q.isLt
  rw [block_apply]
  by_cases hc0 : q.val < N₁
  · have c0 : q.val < N₁ := hc0
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩] hc (ix2 p q) 0 (by show 0 < 3; omega) ⟨2, ![R, N₁]⟩ _ rfl rfl (0) rfl (ix2 p ⟨q.val, c0⟩) (fun b hb => ?_) (Nat.zero_add _)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩] hc' (hN.idx t (ix2 p q)) 0 (by show 0 < 3; omega) ⟨2, ![M, N₁]⟩ A rfl rfl (0) rfl (h₁.idx t (ix2 p ⟨q.val, c0⟩)) (fun b hb => ?_) (Nat.zero_add _))
    match b with
    | ⟨0, _⟩ => rfl
    | ⟨1, _⟩ => exact absurd rfl hb
  by_cases hc1 : q.val < N₁ + N₂
  · have c1 : q.val - (N₁) < N₂ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩] hc (ix2 p q) 1 (by show 1 < 3; omega) ⟨2, ![R, N₂]⟩ _ rfl rfl (N₁) (by simp [List.take, List.map, List.sum_cons]; try omega) (ix2 p ⟨q.val - (N₁), c1⟩) (fun b hb => ?_) (by show N₁ + (q.val - (N₁)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩] hc' (hN.idx t (ix2 p q)) 1 (by show 1 < 3; omega) ⟨2, ![M, N₂]⟩ B rfl rfl (N₁) (by simp [List.take, List.map, List.sum_cons]; try omega) (h₂.idx t (ix2 p ⟨q.val - (N₁), c1⟩)) (fun b hb => ?_) (by show N₁ + (q.val - (N₁)) = q.val; omega))
    match b with
    | ⟨0, _⟩ => rfl
    | ⟨1, _⟩ => exact absurd rfl hb
  · have c2 : q.val - (N₁ + N₂) < N₃ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩] hc (ix2 p q) 2 (by show 2 < 3; omega) ⟨2, ![R, N₃]⟩ _ rfl rfl (N₁ + N₂) (by simp [List.take, List.map, List.sum_cons]; try omega) (ix2 p ⟨q.val - (N₁ + N₂), c2⟩) (fun b hb => ?_) (by show N₁ + N₂ + (q.val - (N₁ + N₂)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩] hc' (hN.idx t (ix2 p q)) 2 (by show 2 < 3; omega) ⟨2, ![M, N₃]⟩ C rfl rfl (N₁ + N₂) (by simp [List.take, List.map, List.sum_cons]; try omega) (h₃.idx t (ix2 p ⟨q.val - (N₁ + N₂), c2⟩)) (fun b hb => ?_) (by show N₁ + N₂ + (q.val - (N₁ + N₂)) = q.val; omega))
    match b with
    | ⟨0, _⟩ => rfl
    | ⟨1, _⟩ => exact absurd rfl hb

end Cert.RowBlock

end
-- ==== Proof.RowBlocks.lean ====
import proofs.«168316_j46334107189561_1_alg».proof.Proof.Gen.KernelIdeal.Skeleton
import proofs.«168316_j46334107189561_1_alg».proof.Proof.Spec
import proofs.«168316_j46334107189561_1_alg».proof.Proof.LibRowBlockGate
import proofs.«168316_j46334107189561_1_alg».proof.Proof.LibConcat3Rows

noncomputable section

/-! # A kernel's block of rows is that block of the whole-array function

The edge arrays have `800000 = 200 · 4000` rows and the node arrays `50000 = 25 · 2000`. Block `t` of an array is its rows
`t·R … t·R + R − 1`. Each kernel's body, applied to block `t` of its row-indexed operands and to its parameter arrays
whole, gives block `t` of the corresponding whole-array function of `Spec`: every step of the body (the operands laid
side by side, a product with a shared matrix into a zero accumulator, a bias row, `z · 1/(1 + e^(−z))`, a column laid
across the columns, sums and products entry by entry) commutes with taking a block of rows, and on the extended reals
rounding an operand to a narrower format changes nothing. -/

/-! ## The message kernel's block is a row block of the whole-array message -/

namespace Cert.Blocks

open Idealize.ShloMosaic Idealize.ShloMosaic.Layout Cert.RowBlock Cert.Spec

/-- \`800000 = 200 · 4000\` rows, whatever the number of columns. -/
theorem tE128 : Tiles ⟨2, ![4000, 128]⟩ ⟨2, ![800000, 128]⟩ 0 200 := by decide
theorem tE32 : Tiles ⟨2, ![4000, 32]⟩ ⟨2, ![800000, 32]⟩ 0 200 := by decide
theorem tE288 : Tiles ⟨2, ![4000, 288]⟩ ⟨2, ![800000, 288]⟩ 0 200 := by decide
theorem tE1 : Tiles ⟨2, ![4000, 1]⟩ ⟨2, ![800000, 1]⟩ 0 200 := by decide

/-- Rows `4000 t … 4000 t + 3999` of an `[E, 128]` array. -/
abbrev rowsE (t : Fin 200) (X : FVec Ideal ⟨2, ![800000, 128]⟩ .f32) : FVec Ideal ⟨2, ![4000, 128]⟩ .f32 :=
  block ⟨2, ![4000, 128]⟩ ⟨2, ![800000, 128]⟩ 0 200 t X tE128

/-- \`z · logistic z\` of a block of edge rows is the block of \`silu z\`: the logistic function is \`1 / (1 + e^(−z))\`. -/
theorem siluE_rows (t : Fin 200) (Z : FVec Ideal ⟨2, ![800000, 128]⟩ .f32) :
    mulf (rowsE t Z) (logistic (rowsE t Z)) = rowsE t (siluE Z) := by
  rw [logistic_rows tE128 t Z Cert.ReferenceIdeal.Gen.bcast_S_S800000x128, mulf_rows]
  rfl

/-- The message kernel's body on block \`t\` of the two gathered endpoint arrays and of the invariants, the six parameter
    arrays whole, is block \`t\` of the gated messages: three dense layers read block by block, the last one a column. -/
theorem message_rows (t : Fin 200) (xs xr : FVec Ideal ⟨2, ![800000, 128]⟩ .f32) (inv : FVec Ideal ⟨2, ![800000, 32]⟩ .f32)
    (Wm1 : FVec Ideal ⟨2, ![288, 128]⟩ .f32) (bm1 : FVec Ideal ⟨1, ![128]⟩ .f32) (Wm2 : FVec Ideal ⟨2, ![128, 128]⟩ .f32)
    (bm2 : FVec Ideal ⟨1, ![128]⟩ .f32) (We : FVec Ideal ⟨2, ![128, 1]⟩ .f32) (be : FVec Ideal ⟨1, ![1]⟩ .f32) :
    Cert.KernelIdeal.Gen.k0_pay1 (F := Ideal) (rowsE t xs) (rowsE t xr)
        (block ⟨2, ![4000, 32]⟩ ⟨2, ![800000, 32]⟩ 0 200 t inv tE32) Wm1 bm1 Wm2 bm2 We be
      = rowsE t (gated xs xr inv Wm1 bm1 Wm2 bm2 We be) := by
  unfold Cert.KernelIdeal.Gen.k0_pay1
  dsimp only
  rw [shapeCast_self (rowsE t xs), shapeCast_self (rowsE t xr)]
  -- the edge rows side by side
  rw [concat3_rows tE128 tE128 tE32 tE288 t Cert.KernelIdeal.Gen.concatenates_S4000x128_S4000x128_S4000x32_S4000x288_d1
    Cert.ReferenceIdeal.Gen.concatenates_S800000x128_S800000x128_S800000x32_S800000x288_d1 xs xr inv]
  -- first dense layer
  rw [dot_rows_trunc Cert.KernelIdeal.Gen.bitsLt_bf16_f32 Cert.KernelIdeal.Gen.bitsLt_bf16_f32
    Cert.KernelIdeal.dot_S4000x288_S288x128_S4000x128_1_0_0_1_n_n rfl
    Cert.ReferenceIdeal.dot_S800000x288_S288x128_S800000x128_1_0_0_1_n_n rfl tE288 tE128 none none t _ Wm1]
  rw [bias_rows tE128 t Cert.KernelIdeal.Gen.shapeCasts_S128_S1x128 Cert.KernelIdeal.Gen.broadcasts_S1x128_S4000x128
    Cert.ReferenceIdeal.Gen.bcast_S128_S1x128_1 Cert.ReferenceIdeal.Gen.bcast_S1x128_S800000x128_0_1 bm1]
  rw [addf_rows tE128 t, siluE_rows t]
  -- second dense layer
  rw [dot_rows_trunc Cert.KernelIdeal.Gen.bitsLt_bf16_f32 Cert.KernelIdeal.Gen.bitsLt_bf16_f32
    Cert.KernelIdeal.dot_S4000x128_S128x128_S4000x128_1_0_0_1_n_n rfl
    Cert.ReferenceIdeal.dot_S800000x128_S128x128_S800000x128_1_0_0_1_n_n rfl tE128 tE128 none none t _ Wm2]
  rw [bias_rows tE128 t Cert.KernelIdeal.Gen.shapeCasts_S128_S1x128 Cert.KernelIdeal.Gen.broadcasts_S1x128_S4000x128
    Cert.ReferenceIdeal.Gen.bcast_S128_S1x128_1 Cert.ReferenceIdeal.Gen.bcast_S1x128_S800000x128_0_1 bm2]
  rw [addf_rows tE128 t, siluE_rows t]
  -- the gate column
  rw [dot_rows_trunc Cert.KernelIdeal.Gen.bitsLt_bf16_f32 Cert.KernelIdeal.Gen.bitsLt_bf16_f32
    Cert.KernelIdeal.dot_S4000x128_S128x1_S4000x1_1_0_0_1_n_n rfl
    Cert.ReferenceIdeal.dot_S800000x128_S128x1_S800000x1_1_0_0_1_n_n rfl tE128 tE1 none none t _ We]
  rw [bias_rows tE1 t Cert.KernelIdeal.Gen.shapeCasts_S1_S1x1 Cert.KernelIdeal.Gen.broadcasts_S1x1_S4000x1
    Cert.ReferenceIdeal.Gen.bcast_S1_S1x1_1 Cert.ReferenceIdeal.Gen.bcast_S1x1_S800000x1_0_1 be]
  rw [addf_rows tE1 t, logistic_rows tE1 t _ Cert.ReferenceIdeal.Gen.bcast_S_S800000x1]
  rw [column_rows tE1 tE128 t Cert.KernelIdeal.Gen.broadcasts_S4000x1_S4000x128 Cert.ReferenceIdeal.Gen.bcast_S800000x1_S800000x128_0_1]
  rw [mulf_rows tE128 t]
  rfl

end Cert.Blocks

/-! ## The update kernel's block is a row block of the whole-array update -/

namespace Cert.Blocks

open Idealize.ShloMosaic Idealize.ShloMosaic.Layout Cert.RowBlock Cert.Spec

/-- \`50000 = 25 · 2000\` rows. -/
theorem tN128 : Tiles ⟨2, ![2000, 128]⟩ ⟨2, ![50000, 128]⟩ 0 25 := by decide
theorem tN256 : Tiles ⟨2, ![2000, 256]⟩ ⟨2, ![50000, 256]⟩ 0 25 := by decide

/-- Rows `2000 t … 2000 t + 1999` of an `[N, 128]` array. -/
abbrev rowsN (t : Fin 25) (X : FVec Ideal ⟨2, ![50000, 128]⟩ .f32) : FVec Ideal ⟨2, ![2000, 128]⟩ .f32 :=
  block ⟨2, ![2000, 128]⟩ ⟨2, ![50000, 128]⟩ 0 25 t X tN128

/-- \`z · logistic z\` of a block of node rows is the block of \`silu z\`. -/
theorem siluN_rows (t : Fin 25) (Z : FVec Ideal ⟨2, ![50000, 128]⟩ .f32) :
    mulf (rowsN t Z) (logistic (rowsN t Z)) = rowsN t (siluN Z) := by
  rw [logistic_rows tN128 t Z Cert.ReferenceIdeal.Gen.bcast_S_S50000x128, mulf_rows]
  rfl

/-- The update kernel's body on block \`t\` of the node array (read twice: for the dense layer and for the residual sum)
    and of the aggregate, the four parameter arrays whole, is block \`t\` of the updated node array. -/
theorem update_rows (t : Fin 25) (x a : FVec Ideal ⟨2, ![50000, 128]⟩ .f32)
    (Wu1 : FVec Ideal ⟨2, ![256, 128]⟩ .f32) (bu1 : FVec Ideal ⟨1, ![128]⟩ .f32) (Wu2 : FVec Ideal ⟨2, ![128, 128]⟩ .f32)
    (bu2 : FVec Ideal ⟨1, ![128]⟩ .f32) :
    Cert.KernelIdeal.Gen.k1_pay1 (F := Ideal) (rowsN t x) (rowsN t a) Wu1 bu1 Wu2 bu2 (rowsN t x)
      = rowsN t (update x a Wu1 bu1 Wu2 bu2) := by
  unfold Cert.KernelIdeal.Gen.k1_pay1
  dsimp only
  rw [shapeCast_self (rowsN t a)]
  rw [concat2_rows tN128 tN128 tN256 t Cert.KernelIdeal.Gen.concatenates_S2000x128_S2000x128_S2000x256_d1
    Cert.ReferenceIdeal.Gen.concatenates_S50000x128_S50000x128_S50000x256_d1 x a]
  rw [dot_rows_trunc Cert.KernelIdeal.Gen.bitsLt_bf16_f32 Cert.KernelIdeal.Gen.bitsLt_bf16_f32
    Cert.KernelIdeal.dot_S2000x256_S256x128_S2000x128_1_0_0_1_n_n rfl
    Cert.ReferenceIdeal.dot_S50000x256_S256x128_S50000x128_1_0_0_1_n_n rfl tN256 tN128 none none t _ Wu1]
  rw [bias_rows tN128 t Cert.KernelIdeal.Gen.shapeCasts_S128_S1x128 Cert.KernelIdeal.Gen.broadcasts_S1x128_S2000x128
    Cert.ReferenceIdeal.Gen.bcast_S128_S1x128_1 Cert.ReferenceIdeal.Gen.bcast_S1x128_S50000x128_0_1 bu1]
  rw [addf_rows tN128 t, siluN_rows t]
  rw [dot_rows_trunc Cert.KernelIdeal.Gen.bitsLt_bf16_f32 Cert.KernelIdeal.Gen.bitsLt_bf16_f32
    Cert.KernelIdeal.dot_S2000x128_S128x128_S2000x128_1_0_0_1_n_n rfl
    Cert.ReferenceIdeal.dot_S50000x128_S128x128_S50000x128_1_0_0_1_n_n rfl tN128 tN128 none none t _ Wu2]
  rw [bias_rows tN128 t Cert.KernelIdeal.Gen.shapeCasts_S128_S1x128 Cert.KernelIdeal.Gen.broadcasts_S1x128_S2000x128
    Cert.ReferenceIdeal.Gen.bcast_S128_S1x128_1 Cert.ReferenceIdeal.Gen.bcast_S1x128_S50000x128_0_1 bu2]
  rw [addf_rows tN128 t, addf_rows tN128 t]
  rfl

end Cert.Blocks

end
-- ==== Proof.KernelValue.lean ====
import proofs.«168316_j46334107189561_1_alg».proof.Proof.Gen.KernelIdeal.Frame
import proofs.«168316_j46334107189561_1_alg».proof.Proof.RowBlocks
import Idealize.ShloMosaic.Lib.Pipeline.Value
import Idealize.ShloMosaic.Lib.StableHlo.Run

set_option maxRecDepth 16384

noncomputable section

/-! # What the two calls leave in their output arrays, and the result of the run

Each call is read at the contents `V` its region finds. A point's block of a row-tiled array is a block of rows
(rows `t·R …`, all columns), a parameter array is taken whole; so what point `t` writes back is the kernel's body on
those, which is block `t` of the whole-array function (`RowBlocks`). Row `r` lies in the block of point `r / R`, so the
blocks cover the output array, and after the call the array holds the whole-array function of `V`'s arrays. The run
then threads the two calls through the host's operations: a gather before the first call, a scatter-add between the
two, no write to an argument array anywhere. -/

namespace Cert.KernelIdeal.KValue

open Cert.KernelIdeal Cert.KernelIdeal.Gen
open Idealize.ShloMosaic Idealize.ShloMosaic.TcCoe Idealize.ShloMosaic.Layout
open Idealize.SL.Sem
open Idealize.ShloMosaic.Pipeline (Dat Cfg Window)
open Cert.Spec Cert.Blocks

/-- The zero offsets of a whole-buffer access, however spelt. -/
theorem hz2 : (![0, 0] : Fin 2 → Nat) = fun _ => 0 := funext fun a => by fin_cases a <;> rfl
theorem hz1 : (![0] : Fin 1 → Nat) = fun _ => 0 := funext fun a => by fin_cases a; rfl

/-! ## The message call -/

section Region0
variable (V : (c : Dev nD) → (b : Ref sig .tc) → Buf (Elt Ideal) ((c : Thread nD τ).loc b))

/-- The printed index maps of the message call, decided over its 200 points: the three edge arrays and the result
    are cut at block row `t`, the six parameter arrays are taken whole. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

/-- Block `t` of a tiled edge array, as the pipeline cuts it, is rows `4000 t …` of the array. -/
theorem iblk0_0 (c : Dev nD) (t : Fin cfg0.N) : iblk0 V c 0 t = rowsE (Fin.cast N_0 t) (V c main_v10) := by
  obtain ⟨a0, a1, b0, b1, c0, c1, -⟩ := idx0 t
  funext y
  show V c main_v10 (((cfg0.win 0).blk t).view.emb y) = V c main_v10 (tE128.idx (Fin.cast N_0 t) y)
  congr 1
  funext a; apply Fin.ext
  match a with
  | ⟨0, _⟩ => show win0_0.index t (0 : Fin 2) * 4000 + 1 * (y 0).val = t.val * 4000 + (y 0).val; omega
  | ⟨1, _⟩ => show win0_0.index t (1 : Fin 2) * 128 + 1 * (y 1).val = (y 1).val; omega

theorem iblk0_1 (c : Dev nD) (t : Fin cfg0.N) : iblk0 V c 1 t = rowsE (Fin.cast N_0 t) (V c main_v17) := by
  obtain ⟨a0, a1, b0, b1, c0, c1, -⟩ := idx0 t
  funext y
  show V c main_v17 (((cfg0.win 1).blk t).view.emb y) = V c main_v17 (tE128.idx (Fin.cast N_0 t) y)
  congr 1
  funext a; apply Fin.ext
  match a with
  | ⟨0, _⟩ => show win0_1.index t (0 : Fin 2) * 4000 + 1 * (y 0).val = t.val * 4000 + (y 0).val; omega
  | ⟨1, _⟩ => show win0_1.index t (1 : Fin 2) * 128 + 1 * (y 1).val = (y 1).val; omega

theorem iblk0_2 (c : Dev nD) (t : Fin cfg0.N) : iblk0 V c 2 t = block ⟨2, ![4000, 32]⟩ ⟨2, ![800000, 32]⟩ 0 200 (Fin.cast N_0 t) (V c main_arg2) tE32 := by
  obtain ⟨a0, a1, b0, b1, c0, c1, -⟩ := idx0 t
  funext y
  show V c main_arg2 (((cfg0.win 2).blk t).view.emb y) = V c main_arg2 (tE32.idx (Fin.cast N_0 t) y)
  congr 1
  funext a; apply Fin.ext
  match a with
  | ⟨0, _⟩ => show win0_2.index t (0 : Fin 2) * 4000 + 1 * (y 0).val = t.val * 4000 + (y 0).val; omega
  | ⟨1, _⟩ => show win0_2.index t (1 : Fin 2) * 32 + 1 * (y 1).val = (y 1).val; omega

/-- A parameter array is taken whole at every point. -/
theorem iblk0_3 (c : Dev nD) (t : Fin cfg0.N) : iblk0 V c 3 t = V c main_arg3 := by
  obtain ⟨-, -, -, -, -, -, d0, d1, e0, f0, f1, g0, h0, h1, k0, -⟩ := idx0 t
  funext y
  show V c main_arg3 (((cfg0.win 3).blk t).view.emb y) = V c main_arg3 y
  congr 1
  funext a; apply Fin.ext
  match a with
  | ⟨0, _⟩ => show win0_3.index t (0 : Fin 2) * 288 + 1 * (y 0).val = (y 0).val; omega
  | ⟨1, _⟩ => show win0_3.index t (1 : Fin 2) * 128 + 1 * (y 1).val = (y 1).val; omega

theorem iblk0_4 (c : Dev nD) (t : Fin cfg0.N) : iblk0 V c 4 t = V c main_arg4 := by
  obtain ⟨-, -, -, -, -, -, d0, d1, e0, f0, f1, g0, h0, h1, k0, -⟩ := idx0 t
  funext y
  show V c main_arg4 (((cfg0.win 4).blk t).view.emb y) = V c main_arg4 y
  congr 1
  funext a; apply Fin.ext
  match a with
  | ⟨0, _⟩ => show win0_4.index t (0 : Fin 1) * 128 + 1 * (y 0).val = (y 0).val; omega

theorem iblk0_5 (c : Dev nD) (t : Fin cfg0.N) : iblk0 V c 5 t = V c main_arg5 := by
  obtain ⟨-, -, -, -, -, -, d0, d1, e0, f0, f1, g0, h0, h1, k0, -⟩ := idx0 t
  funext y
  show V c main_arg5 (((cfg0.win 5).blk t).view.emb y) = V c main_arg5 y
  congr 1
  funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem iblk0_6 (c : Dev nD) (t : Fin cfg0.N) : iblk0 V c 6 t = V c main_arg6 := by
  obtain ⟨-, -, -, -, -, -, d0, d1, e0, f0, f1, g0, h0, h1, k0, -⟩ := idx0 t
  funext y
  show V c main_arg6 (((cfg0.win 6).blk t).view.emb y) = V c main_arg6 y
  congr 1
  funext a; apply Fin.ext
  match a with
  | ⟨0, _⟩ => show win0_6.index t (0 : Fin 1) * 128 + 1 * (y 0).val = (y 0).val; omega

theorem iblk0_7 (c : Dev nD) (t : Fin cfg0.N) : iblk0 V c 7 t = V c main_arg7 := by
  obtain ⟨-, -, -, -, -, -, d0, d1, e0, f0, f1, g0, h0, h1, k0, -⟩ := idx0 t
  funext y
  show V c main_arg7 (((cfg0.win 7).blk t).view.emb y) = V c main_arg7 y
  congr 1
  funext a; apply Fin.ext
  match a with
  | ⟨0, _⟩ => show win0_7.index t (0 : Fin 2) * 128 + 1 * (y 0).val = (y 0).val; omega
  | ⟨1, _⟩ => show win0_7.index t (1 : Fin 2) * 1 + 1 * (y 1).val = (y 1).val; omega

theorem iblk0_8 (c : Dev nD) (t : Fin cfg0.N) : iblk0 V c 8 t = V c main_arg8 := by
  obtain ⟨-, -, -, -, -, -, d0, d1, e0, f0, f1, g0, h0, h1, k0, -⟩ := idx0 t
  funext y
  show V c main_arg8 (((cfg0.win 8).blk t).view.emb y) = V c main_arg8 y
  congr 1
  funext a; apply Fin.ext
  match a with
  | ⟨0, _⟩ => show win0_8.index t (0 : Fin 1) * 1 + 1 * (y 0).val = (y 0).val; omega

/-- What point `t` of the message call writes back is block `t` of the gated messages of the arrays the region finds. -/
theorem flushed0 (c : Dev nD) (t : Fin cfg0.N) :
    (dat0 V c).flushed 9 t = ((cfg0.win 9).blk t).view.read (Elt Ideal)
      (gated (V c main_v10) (V c main_v17) (V c main_arg2) (V c main_arg3) (V c main_arg4) (V c main_arg5)
        (V c main_arg6) (V c main_arg7) (V c main_arg8)) := by
  show (cfg0.win 9).cut (grid0.coords t) ((dat0 V c).after 9 t) = _
  rw [after0_9]
  unfold out0_9
  rw [View.canon_unit_zero hz2]
  simp only [View.ld_unit_zero (S := S4000x128) hz2, View.ld_unit_zero (S := S4000x32) hz2, View.ld_unit_zero (S := S288x128) hz2,
    View.ld_unit_zero (S := S128) hz1, View.ld_unit_zero (S := S128x128) hz2, View.ld_unit_zero (S := S128x1) hz2,
    View.ld_unit_zero (S := S1) hz1]
  rw [iblk0_0, iblk0_1, iblk0_2, iblk0_3, iblk0_4, iblk0_5, iblk0_6, iblk0_7, iblk0_8, message_rows]
  obtain ⟨-, -, -, -, -, -, -, -, -, -, -, -, -, -, -, z0, z1⟩ := idx0 t
  funext y
  show gated (V c main_v10) (V c main_v17) (V c main_arg2) (V c main_arg3) (V c main_arg4) (V c main_arg5)
        (V c main_arg6) (V c main_arg7) (V c main_arg8) (tE128.idx (Fin.cast N_0 t) y)
      = gated (V c main_v10) (V c main_v17) (V c main_arg2) (V c main_arg3) (V c main_arg4) (V c main_arg5)
        (V c main_arg6) (V c main_arg7) (V c main_arg8) (((cfg0.win 9).blk t).view.emb y)
  congr 1
  funext a; apply Fin.ext
  match a with
  | ⟨0, _⟩ => show t.val * 4000 + (y 0).val = win0_9.index t (0 : Fin 2) * 4000 + 1 * (y 0).val; omega
  | ⟨1, _⟩ => show (y 1).val = win0_9.index t (1 : Fin 2) * 128 + 1 * (y 1).val; omega

/-- An index of the message array is in point `t`'s block iff each coordinate is in the block's range on its axis. -/
theorem mem_blk0 (t : Fin cfg0.N) (i : S800000x128.Idx) :
    i ∈ ((cfg0.win 9).blk t).view.set ↔ ∀ a : Fin 2, win0_9.index t a * S4000x128.size a ≤ (i a).val ∧ (i a).val < win0_9.index t a * S4000x128.size a + S4000x128.size a := by
  show i ∈ ((View.whole main_v18).slice (win0_9.rect t)).set ↔ _
  rw [View.set_slice_whole, Rect.mem_set_unit]
  exact Iff.rfl

/-- Row `r` of the message array lies in the block of point `r / 4000`. -/
theorem cover0 (i : S800000x128.Idx) : ∃ t : Fin cfg0.N, (cfg0.win 9).flush t = true ∧ i ∈ ((cfg0.win 9).blk t).view.set := by
  have hi0 : (i 0).val < 800000 := (i 0).isLt
  have hi1 : (i 1).val < 128 := (i 1).isLt
  have hN : cfg0.N = 200 := N_0
  have hlt : (i 0).val / 4000 < cfg0.N := by rw [hN]; omega
  obtain ⟨-, -, -, -, -, -, -, -, -, -, -, -, -, -, -, z0, z1⟩ := idx0 ⟨(i 0).val / 4000, hlt⟩
  refine ⟨⟨(i 0).val / 4000, hlt⟩, flush0_9 _, ?_⟩
  rw [mem_blk0]
  intro a
  match a with
  | ⟨0, _⟩ =>
    show win0_9.index ⟨(i 0).val / 4000, hlt⟩ (0 : Fin 2) * 4000 ≤ (i 0).val ∧ (i 0).val < win0_9.index ⟨(i 0).val / 4000, hlt⟩ (0 : Fin 2) * 4000 + 4000
    rw [z0]; show (i 0).val / 4000 * 4000 ≤ (i 0).val ∧ (i 0).val < (i 0).val / 4000 * 4000 + 4000; omega
  | ⟨1, _⟩ =>
    show win0_9.index ⟨(i 0).val / 4000, hlt⟩ (1 : Fin 2) * 128 ≤ (i 1).val ∧ (i 1).val < win0_9.index ⟨(i 0).val / 4000, hlt⟩ (1 : Fin 2) * 128 + 128
    rw [z1]; omega

/-- The message array after the region: the gated messages of the arrays the region finds. -/
theorem final0 (c : Dev nD) : (dat0 V c).arrAt 9 cfg0.N
    = gated (V c main_v10) (V c main_v17) (V c main_arg2) (V c main_arg3) (V c main_arg4) (V c main_arg5)
        (V c main_arg6) (V c main_arg7) (V c main_arg8) :=
  (dat0 V c).arrAt_eq_of_cover 9 _ (fun t _ => flushed0 V c t) cover0

end Region0

/-! ## The update call -/

section Region1
variable (V : (c : Dev nD) → (b : Ref sig .tc) → Buf (Elt Ideal) ((c : Thread nD τ).loc b))

/-- The printed index maps of the update call, decided over its 25 points: the node array, the aggregate and the
    result are cut at block row `t`, the four parameter arrays are taken whole. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Block `t` of a tiled node array, as the pipeline cuts it, is rows `2000 t …` of the array. -/
theorem iblk1_0 (c : Dev nD) (t : Fin cfg1.N) : iblk1 V c 0 t = rowsN (Fin.cast N_1 t) (V c main_arg0) := by
  obtain ⟨a0, a1, b0, b1, -⟩ := idx1 t
  funext y
  show V c main_arg0 (((cfg1.win 0).blk t).view.emb y) = V c main_arg0 (tN128.idx (Fin.cast N_1 t) y)
  congr 1
  funext a; apply Fin.ext
  match a with
  | ⟨0, _⟩ => show win1_0.index t (0 : Fin 2) * 2000 + 1 * (y 0).val = t.val * 2000 + (y 0).val; omega
  | ⟨1, _⟩ => show win1_0.index t (1 : Fin 2) * 128 + 1 * (y 1).val = (y 1).val; omega

theorem iblk1_1 (c : Dev nD) (t : Fin cfg1.N) : iblk1 V c 1 t = rowsN (Fin.cast N_1 t) (V c main_v21) := by
  obtain ⟨a0, a1, b0, b1, -⟩ := idx1 t
  funext y
  show V c main_v21 (((cfg1.win 1).blk t).view.emb y) = V c main_v21 (tN128.idx (Fin.cast N_1 t) y)
  congr 1
  funext a; apply Fin.ext
  match a with
  | ⟨0, _⟩ => show win1_1.index t (0 : Fin 2) * 2000 + 1 * (y 0).val = t.val * 2000 + (y 0).val; omega
  | ⟨1, _⟩ => show win1_1.index t (1 : Fin 2) * 128 + 1 * (y 1).val = (y 1).val; omega

/-- A parameter array is taken whole at every point. -/
theorem iblk1_2 (c : Dev nD) (t : Fin cfg1.N) : iblk1 V c 2 t = V c main_arg9 := by
  obtain ⟨-, -, -, -, c0, c1, d0, e0, e1, f0, -⟩ := idx1 t
  funext y
  show V c main_arg9 (((cfg1.win 2).blk t).view.emb y) = V c main_arg9 y
  congr 1
  funext a; apply Fin.ext
  match a with
  | ⟨0, _⟩ => show win1_2.index t (0 : Fin 2) * 256 + 1 * (y 0).val = (y 0).val; omega
  | ⟨1, _⟩ => show win1_2.index t (1 : Fin 2) * 128 + 1 * (y 1).val = (y 1).val; omega

theorem iblk1_3 (c : Dev nD) (t : Fin cfg1.N) : iblk1 V c 3 t = V c main_arg10 := by
  obtain ⟨-, -, -, -, c0, c1, d0, e0, e1, f0, -⟩ := idx1 t
  funext y
  show V c main_arg10 (((cfg1.win 3).blk t).view.emb y) = V c main_arg10 y
  congr 1
  funext a; apply Fin.ext
  match a with
  | ⟨0, _⟩ => show win1_3.index t (0 : Fin 1) * 128 + 1 * (y 0).val = (y 0).val; omega

theorem iblk1_4 (c : Dev nD) (t : Fin cfg1.N) : iblk1 V c 4 t = V c main_arg11 := by
  obtain ⟨-, -, -, -, c0, c1, d0, e0, e1, f0, -⟩ := idx1 t
  funext y
  show V c main_arg11 (((cfg1.win 4).blk t).view.emb y) = V c main_arg11 y
  congr 1
  funext a; apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

theorem iblk1_5 (c : Dev nD) (t : Fin cfg1.N) : iblk1 V c 5 t = V c main_arg12 := by
  obtain ⟨-, -, -, -, c0, c1, d0, e0, e1, f0, -⟩ := idx1 t
  funext y
  show V c main_arg12 (((cfg1.win 5).blk t).view.emb y) = V c main_arg12 y
  congr 1
  funext a; apply Fin.ext
  match a with
  | ⟨0, _⟩ => show win1_5.index t (0 : Fin 1) * 128 + 1 * (y 0).val = (y 0).val; omega

/-- What point `t` of the update call writes back is block `t` of the updated node rows of the arrays the region finds. -/
theorem flushed1 (c : Dev nD) (t : Fin cfg1.N) :
    (dat1 V c).flushed 6 t = ((cfg1.win 6).blk t).view.read (Elt Ideal)
      (update (V c main_arg0) (V c main_v21) (V c main_arg9) (V c main_arg10) (V c main_arg11) (V c main_arg12)) := by
  show (cfg1.win 6).cut (grid1.coords t) ((dat1 V c).after 6 t) = _
  rw [after1_6]
  unfold out1_6
  rw [View.canon_unit_zero hz2]
  simp only [View.ld_unit_zero (S := S2000x128) hz2, View.ld_unit_zero (S := S256x128) hz2,
    View.ld_unit_zero (S := S128) hz1, View.ld_unit_zero (S := S128x128) hz2]
  rw [iblk1_0, iblk1_1, iblk1_2, iblk1_3, iblk1_4, iblk1_5, update_rows]
  obtain ⟨-, -, -, -, -, -, -, -, -, -, z0, z1⟩ := idx1 t
  funext y
  show update (V c main_arg0) (V c main_v21) (V c main_arg9) (V c main_arg10) (V c main_arg11) (V c main_arg12)
        (tN128.idx (Fin.cast N_1 t) y)
      = update (V c main_arg0) (V c main_v21) (V c main_arg9) (V c main_arg10) (V c main_arg11) (V c main_arg12)
        (((cfg1.win 6).blk t).view.emb y)
  congr 1
  funext a; apply Fin.ext
  match a with
  | ⟨0, _⟩ => show t.val * 2000 + (y 0).val = win1_6.index t (0 : Fin 2) * 2000 + 1 * (y 0).val; omega
  | ⟨1, _⟩ => show (y 1).val = win1_6.index t (1 : Fin 2) * 128 + 1 * (y 1).val; omega

/-- An index of the result array is in point `t`'s block iff each coordinate is in the block's range on its axis. -/
theorem mem_blk1 (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v22).slice (win1_6.rect t)).set ↔ _
  rw [View.set_slice_whole, Rect.mem_set_unit]
  exact Iff.rfl

/-- Row `r` of the result array lies in the block of point `r / 2000`. -/
theorem cover1 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 25 := N_1
  have hlt : (i 0).val / 2000 < cfg1.N := by rw [hN]; omega
  obtain ⟨-, -, -, -, -, -, -, -, -, -, z0, z1⟩ := idx1 ⟨(i 0).val / 2000, hlt⟩
  refine ⟨⟨(i 0).val / 2000, hlt⟩, flush1_6 _, ?_⟩
  rw [mem_blk1]
  intro a
  match a with
  | ⟨0, _⟩ =>
    show win1_6.index ⟨(i 0).val / 2000, hlt⟩ (0 : Fin 2) * 2000 ≤ (i 0).val ∧ (i 0).val < win1_6.index ⟨(i 0).val / 2000, hlt⟩ (0 : Fin 2) * 2000 + 2000
    rw [z0]; show (i 0).val / 2000 * 2000 ≤ (i 0).val ∧ (i 0).val < (i 0).val / 2000 * 2000 + 2000; omega
  | ⟨1, _⟩ =>
    show win1_6.index ⟨(i 0).val / 2000, hlt⟩ (1 : Fin 2) * 128 ≤ (i 1).val ∧ (i 1).val < win1_6.index ⟨(i 0).val / 2000, hlt⟩ (1 : Fin 2) * 128 + 128
    rw [z1]; omega

/-- The result array after the region: the updated node rows of the arrays the region finds. -/
theorem final1 (c : Dev nD) : (dat1 V c).arrAt 6 cfg1.N
    = update (V c main_arg0) (V c main_v21) (V c main_arg9) (V c main_arg10) (V c main_arg11) (V c main_arg12) :=
  (dat1 V c).arrAt_eq_of_cover 6 _ (fun t _ => flushed1 V c t) cover1

end Region1

/-! # The run: the host stretches between the regions, and the result -/

section Run
variable (m : (ℓ : Loc nD τ sig) → Buf (Elt Ideal) ℓ) (ρ : Dev nD → PrngReg)

/-- Before the message call the host has gathered the rows of `x` at the senders … -/
theorem V1_v10 (c : Dev nD) : V1 m ρ c main_v10 = rowsAt (m ((c : Thread nD τ).loc main_arg0)) (senders (m ((c : Thread nD τ).loc main_arg1))) := by
  show StableHlo.after hostOps0 (W0 m ρ c) (Proc.devRef .tc main_v10) = _
  after_results_simp
  rfl
/-- … and at the receivers, -/
theorem V1_v17 (c : Dev nD) : V1 m ρ c main_v17 = rowsAt (m ((c : Thread nD τ).loc main_arg0)) (receivers (m ((c : Thread nD τ).loc main_arg1))) := by
  show StableHlo.after hostOps0 (W0 m ρ c) (Proc.devRef .tc main_v17) = _
  after_results_simp
  rfl
/-- and holds the receivers themselves. -/
theorem V1_v3 (c : Dev nD) : V1 m ρ c main_v3 = receivers (m ((c : Thread nD τ).loc main_arg1)) := by
  show StableHlo.after hostOps0 (W0 m ρ c) (Proc.devRef .tc main_v3) = _
  after_results_simp
  rfl
/-- No host operation writes an argument array. -/
theorem V1_arg0 (c : Dev nD) : V1 m ρ c main_arg0 = m ((c : Thread nD τ).loc main_arg0) := by
  show StableHlo.after hostOps0 (W0 m ρ c) (Proc.devRef .tc main_arg0) = _
  after_results_simp
theorem V1_arg2 (c : Dev nD) : V1 m ρ c main_arg2 = m ((c : Thread nD τ).loc main_arg2) := by
  show StableHlo.after hostOps0 (W0 m ρ c) (Proc.devRef .tc main_arg2) = _
  after_results_simp
theorem V1_arg3 (c : Dev nD) : V1 m ρ c main_arg3 = m ((c : Thread nD τ).loc main_arg3) := by
  show StableHlo.after hostOps0 (W0 m ρ c) (Proc.devRef .tc main_arg3) = _
  after_results_simp
theorem V1_arg4 (c : Dev nD) : V1 m ρ c main_arg4 = m ((c : Thread nD τ).loc main_arg4) := by
  show StableHlo.after hostOps0 (W0 m ρ c) (Proc.devRef .tc main_arg4) = _
  after_results_simp
theorem V1_arg5 (c : Dev nD) : V1 m ρ c main_arg5 = m ((c : Thread nD τ).loc main_arg5) := by
  show StableHlo.after hostOps0 (W0 m ρ c) (Proc.devRef .tc main_arg5) = _
  after_results_simp
theorem V1_arg6 (c : Dev nD) : V1 m ρ c main_arg6 = m ((c : Thread nD τ).loc main_arg6) := by
  show StableHlo.after hostOps0 (W0 m ρ c) (Proc.devRef .tc main_arg6) = _
  after_results_simp
theorem V1_arg7 (c : Dev nD) : V1 m ρ c main_arg7 = m ((c : Thread nD τ).loc main_arg7) := by
  show StableHlo.after hostOps0 (W0 m ρ c) (Proc.devRef .tc main_arg7) = _
  after_results_simp
theorem V1_arg8 (c : Dev nD) : V1 m ρ c main_arg8 = m ((c : Thread nD τ).loc main_arg8) := by
  show StableHlo.after hostOps0 (W0 m ρ c) (Proc.devRef .tc main_arg8) = _
  after_results_simp
theorem V1_arg9 (c : Dev nD) : V1 m ρ c main_arg9 = m ((c : Thread nD τ).loc main_arg9) := by
  show StableHlo.after hostOps0 (W0 m ρ c) (Proc.devRef .tc main_arg9) = _
  after_results_simp
theorem V1_arg10 (c : Dev nD) : V1 m ρ c main_arg10 = m ((c : Thread nD τ).loc main_arg10) := by
  show StableHlo.after hostOps0 (W0 m ρ c) (Proc.devRef .tc main_arg10) = _
  after_results_simp
theorem V1_arg11 (c : Dev nD) : V1 m ρ c main_arg11 = m ((c : Thread nD τ).loc main_arg11) := by
  show StableHlo.after hostOps0 (W0 m ρ c) (Proc.devRef .tc main_arg11) = _
  after_results_simp
theorem V1_arg12 (c : Dev nD) : V1 m ρ c main_arg12 = m ((c : Thread nD τ).loc main_arg12) := by
  show StableHlo.after hostOps0 (W0 m ρ c) (Proc.devRef .tc main_arg12) = _
  after_results_simp

/-- The message array after the message call. -/
theorem W2_v18 (c : Dev nD) : W2 m ρ c (Proc.devRef .tc main_v18)
    = gated (rowsAt (m ((c : Thread nD τ).loc main_arg0)) (senders (m ((c : Thread nD τ).loc main_arg1)))) (rowsAt (m ((c : Thread nD τ).loc main_arg0)) (receivers (m ((c : Thread nD τ).loc main_arg1))))
        (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W2_arr m ρ c 9).trans ?_
  rw [final0 (V1 m ρ) c, V1_v10, V1_v17, V1_arg2, V1_arg3, V1_arg4, V1_arg5, V1_arg6, V1_arg7, V1_arg8]

/-- The message call leaves the receivers as they were. -/
theorem W2_v3 (c : Dev nD) : W2 m ρ c (Proc.devRef .tc main_v3) = receivers (m ((c : Thread nD τ).loc main_arg1)) :=
  (W2_of_ne m ρ c main_v3 (by decide)).trans (V1_v3 m ρ c)

/-- Between the calls the host adds each gated message row into the row of its receiver. -/
theorem V3_v21 (c : Dev nD) : V3 m ρ c main_v21
    = addInto (receivers (m ((c : Thread nD τ).loc main_arg1))) (gated (rowsAt (m ((c : Thread nD τ).loc main_arg0)) (senders (m ((c : Thread nD τ).loc main_arg1)))) (rowsAt (m ((c : Thread nD τ).loc main_arg0)) (receivers (m ((c : Thread nD τ).loc main_arg1))))
        (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show StableHlo.after hostOps1 (W2 m ρ c) (Proc.devRef .tc main_v21) = _
  after_results
  rw [W2_v3, W2_v18]
  rfl
theorem V3_arg0 (c : Dev nD) : V3 m ρ c main_arg0 = m ((c : Thread nD τ).loc main_arg0) := by
  show StableHlo.after hostOps1 (W2 m ρ c) (Proc.devRef .tc main_arg0) = _
  after_results
  rw [W2_of_ne m ρ c main_arg0 (by decide)]
  exact V1_arg0 m ρ c
theorem V3_arg9 (c : Dev nD) : V3 m ρ c main_arg9 = m ((c : Thread nD τ).loc main_arg9) := by
  show StableHlo.after hostOps1 (W2 m ρ c) (Proc.devRef .tc main_arg9) = _
  after_results
  rw [W2_of_ne m ρ c main_arg9 (by decide)]
  exact V1_arg9 m ρ c
theorem V3_arg10 (c : Dev nD) : V3 m ρ c main_arg10 = m ((c : Thread nD τ).loc main_arg10) := by
  show StableHlo.after hostOps1 (W2 m ρ c) (Proc.devRef .tc main_arg10) = _
  after_results
  rw [W2_of_ne m ρ c main_arg10 (by decide)]
  exact V1_arg10 m ρ c
theorem V3_arg11 (c : Dev nD) : V3 m ρ c main_arg11 = m ((c : Thread nD τ).loc main_arg11) := by
  show StableHlo.after hostOps1 (W2 m ρ c) (Proc.devRef .tc main_arg11) = _
  after_results
  rw [W2_of_ne m ρ c main_arg11 (by decide)]
  exact V1_arg11 m ρ c
theorem V3_arg12 (c : Dev nD) : V3 m ρ c main_arg12 = m ((c : Thread nD τ).loc main_arg12) := by
  show StableHlo.after hostOps1 (W2 m ρ c) (Proc.devRef .tc main_arg12) = _
  after_results
  rw [W2_of_ne m ρ c main_arg12 (by decide)]
  exact V1_arg12 m ρ c

/-- THE RESULT: after the run the result array holds the layer's value of the argument arrays. -/
theorem result (c : Dev nD) : W4 m ρ c (Proc.devRef .tc main_v22)
    = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W4_arr m ρ c 6).trans ?_
  rw [final1 (V3 m ρ) c, V3_arg0, V3_v21, V3_arg9, V3_arg10, V3_arg11, V3_arg12]
  rfl

end Run

end Cert.KernelIdeal.KValue

end
-- ==== Proof.LibNary3Apply.lean ====
import Idealize.ShloMosaic.Lib.StableHlo.Run

noncomputable section

/-! # A host operation of three operands, its result with the operands as plain arguments

An operation over a literal family of three references leaves, at its result buffer, its function of the three
operands' contents. Here that value is written `apply3 f X Y Z` with the three contents as ordinary arguments, each read at
its own reference, so that a one-pass reader of a line of operations rewrites the three reads before the function is
applied to them (a function that puts its operands in a place whose type a later argument depends on, such as the piece list
of a concatenation, otherwise hides them from the reader). -/

namespace Cert.Nary3

open Idealize.ShloMosaic Idealize.ShloMosaic.StableHlo

variable {τ : Topo} {sig : RefSig} {Val : EltTy → Type} {x a b y : Ref sig .tc}

/-- A function of a family of three contents, applied to the three contents one by one. -/
def apply3 (f : ((k : Fin 3) → ((![x, a, b] : Fin 3 → Ref sig .tc) k).ty.Contents Val) → y.ty.Contents Val)
    (X : x.ty.Contents Val) (Y : a.ty.Contents Val) (Z : b.ty.Contents Val) : y.ty.Contents Val :=
  f (Fin.cons X (Fin.cons Y (Fin.cons Z (fun i => i.elim0))))

/-- The result of an operation over three literal references, the operands as plain arguments. -/
theorem nary3_result_apply
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = apply3 f (F (Proc.devRef .tc x)) (F (Proc.devRef .tc a)) (F (Proc.devRef .tc b)) := by
  unfold apply3
  rw [nary_result]; congr 1; funext k; fin_cases k <;> rfl

/-- The same, with the result reference un-indexed, for a one-pass reader. -/
theorem nary3_result_apply'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = apply3 f (F (Proc.devRef .tc x)) (F (Proc.devRef .tc a)) (F (Proc.devRef .tc b)) :=
  nary3_result_apply f hxs hy F

end Cert.Nary3

end
-- ==== Proof.LibBinaryApply.lean ====
import Idealize.ShloMosaic.Lib.StableHlo.Run

noncomputable section

/-! # A host operation of two operands, its result with the operands as plain arguments

An operation over two references leaves, at its result buffer, its function of the two operands' contents. Here that
value is written `apply2 f X Y` with the function kept unapplied and the two contents as ordinary arguments, each read at
its own reference, so that a one-pass reader of a line of operations rewrites the two reads before the function is
applied to them. A function that puts its operands in a place whose type a later argument depends on — the piece list
of a two-piece concatenation, whose evidence speaks of the pieces' shapes — otherwise hides them from the reader. -/

namespace Cert.Binary2

open Idealize.ShloMosaic Idealize.ShloMosaic.StableHlo

variable {τ : Topo} {sig : RefSig} {Val : EltTy → Type} {a b y : Ref sig .tc}

/-- A function of two contents, applied to them one by one. -/
def apply2 (f : a.ty.Contents Val → b.ty.Contents Val → y.ty.Contents Val)
    (X : a.ty.Contents Val) (Y : b.ty.Contents Val) : y.ty.Contents Val :=
  f X Y

/-- The result of an operation over two references, the operands as plain arguments. -/
theorem binary_result_apply (f : a.ty.Contents Val → b.ty.Contents Val → y.ty.Contents Val) (ha hb hy)
    (F : Valuation τ sig Val) :
    (binary (τ := τ) a b y f ha hb hy).result F (Proc.devRef .tc y)
      = apply2 f (F (Proc.devRef .tc a)) (F (Proc.devRef .tc b)) :=
  binary_result a b y f ha hb hy F

/-- The same, with the result reference un-indexed, for a one-pass reader. -/
theorem binary_result_apply' (f : a.ty.Contents Val → b.ty.Contents Val → y.ty.Contents Val) (ha hb hy)
    (F : Valuation τ sig Val) :
    (binary (τ := τ) a b y f ha hb hy).result F (no_index (Proc.devRef .tc y))
      = apply2 f (F (Proc.devRef .tc a)) (F (Proc.devRef .tc b)) :=
  binary_result a b y f ha hb hy F

end Cert.Binary2

end
-- ==== Proof.RefValue.lean ====
import proofs.«168316_j46334107189561_1_alg».proof.Defs
import proofs.«168316_j46334107189561_1_alg».proof.Proof.RefRun
import proofs.«168316_j46334107189561_1_alg».proof.Proof.Spec

noncomputable section

/-! # The reference computes the layer

The reference's result, written out as one term of the host's operations over the argument arrays, is the layer's
whole-array function of `Spec`: the same operations in the same order, with each intermediate array written out again
wherever it is read twice. -/

namespace Cert.ReferenceIdeal.RefValue

open Idealize.ShloMosaic Idealize.ShloMosaic.TcCoe Idealize.SL.Sem Cert.ReferenceIdeal Cert.ReferenceIdeal.Gen Cert.Spec

set_option maxRecDepth 16384 in
/-- The reference's result is the layer's value of its argument arrays. -/
theorem result_is_layer (m : (ℓ : Loc nD τ sig) → Buf (Elt Ideal) ℓ) (c : Dev nD) :
    Cert.ReferenceIdeal.ValueP.res_main_v54 (F := Ideal) m c
      = layer (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) := by
  unfold Cert.ReferenceIdeal.ValueP.res_main_v54 Cert.Spec.layer Cert.Spec.update Cert.Spec.addInto Cert.Spec.gated Cert.Spec.weigh Cert.Spec.gate Cert.Spec.message Cert.Spec.hidden Cert.Spec.rowsAt Cert.Spec.wrap Cert.Spec.senders Cert.Spec.receivers
    Cert.Spec.siluE Cert.Spec.siluN Cert.Spec.biasE Cert.Spec.biasN
  rfl

end Cert.ReferenceIdeal.RefValue

end
-- ==== Proof.lean ====
/- The proof of `Cert.Claim`: one message-passing layer of a graph network (`N = 50000` nodes of `128` features,
   `E = 800000` edges of `32` invariants), computed by two tiled kernels around a host gather and a host scatter-add,
   against the same layer written with whole-array operations.

   The message kernel works on blocks of `4000` edge rows, the update kernel on blocks of `2000` node rows. Every
   operation in either kernel works row by row — a product with a matrix shared by all rows, a bias row, `silu`, the
   gate column laid across the columns — so the kernel's result on a block of rows is that block of the whole-array
   result (`RowBlocks`); rounding the matrix operands to a narrower format is the identity on the extended reals. The
   blocks tile their arrays, so after each call its output array holds the whole-array function of the arrays the call
   found (`KernelValue`); the gather before the first call and the scatter-add between the calls are the reference's own
   operations. The reference's result is the same composite (`RefValue`), hence the two results agree entry by entry.
   No law beyond the definitions of the operations is used, and finiteness of the inputs is not needed.

   The three frame claims are the generated frames (the reference's: its run with the value dropped); the
   idealization rewrote nothing, so `preserves` is `True`. -/
import proofs.«168316_j46334107189561_1_alg».proof.Defs
import proofs.«168316_j46334107189561_1_alg».proof.Proof.Gen.Kernel
import proofs.«168316_j46334107189561_1_alg».proof.Proof.Gen.Kernel.Skeleton
import proofs.«168316_j46334107189561_1_alg».proof.Proof.Gen.Kernel.Launch
import proofs.«168316_j46334107189561_1_alg».proof.Proof.Gen.Kernel.Points
import proofs.«168316_j46334107189561_1_alg».proof.Proof.Gen.Kernel.Frame
import proofs.«168316_j46334107189561_1_alg».proof.Proof.Gen.KernelIdeal
import proofs.«168316_j46334107189561_1_alg».proof.Proof.Gen.KernelIdeal.Skeleton
import proofs.«168316_j46334107189561_1_alg».proof.Proof.Gen.KernelIdeal.Launch
import proofs.«168316_j46334107189561_1_alg».proof.Proof.Gen.KernelIdeal.Points
import proofs.«168316_j46334107189561_1_alg».proof.Proof.Gen.KernelIdeal.Frame
import proofs.«168316_j46334107189561_1_alg».proof.Proof.Gen.ReferenceIdeal
import proofs.«168316_j46334107189561_1_alg».proof.Proof.Gen.Pre_finite_inputs
import proofs.«168316_j46334107189561_1_alg».proof.Proof.KernelRun
import proofs.«168316_j46334107189561_1_alg».proof.Proof.KernelValue
import proofs.«168316_j46334107189561_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the value dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the layer's value of the (agreeing) argument arrays in their result arrays. -/
theorem algebraic : Cert.algebraic_KernelIdeal_ReferenceIdeal := by
  intro m ρ m' ρ' _ hagree
  refine ⟨fun c => Cert.Spec.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.KValue.result m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9, h10, h11, h12⟩ := hagree c
    rw [Cert.ReferenceIdeal.RefValue.result_is_layer, h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
